-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64x8 .f32) (main_arg11 : FVec F S8 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x8 .f32 := Host.absf main_arg10
  let main_cst_16 : FVec F S_ .f32 := constant S_ .f32 0x7F800000#32
  let main_v45 : FVec F S64x8 .f32 := broadcastInDim S64x8 ![] bcast_S_S64x8 main_cst_16
  let main_v46 : IVec S64x8 1 := cmpf .olt main_v44 main_v45
  let main_c_17 : IVec S_ 1 := constantI S_ 1 1#1
  let main_v47 : IVec S_ 1 := (fun x v => Host.reduce IntOp.andi x v reducesTo_S64x8_S_d0_1 h_S_) main_v46 main_c_17
  let main_v48 : IVec S_ 1 := andi main_v43 main_v47
  let main_v49 : FVec F S8 .f32 := Host.absf main_arg11
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S64x8 .f32) (main_arg11 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S64x8 .f32) (main_arg11 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S102400x128 : Shape := ⟨2, ![102400, 128]⟩
abbrev S4096x128 : Shape := ⟨2, ![4096, 128]⟩
abbrev S1x128 : Shape := ⟨2, ![1, 128]⟩
abbrev S102400x8 : Shape := ⟨2, ![102400, 8]⟩
abbrev S4096x8 : Shape := ⟨2, ![4096, 8]⟩
abbrev S4096x64 : Shape := ⟨2, ![4096, 64]⟩
abbrev S1x64 : Shape := ⟨2, ![1, 64]⟩
abbrev S1x8 : Shape := ⟨2, ![1, 8]⟩
abbrev S100000x8 : Shape := ⟨2, ![100000, 8]⟩

abbrev nBuf : Space → Nat
  | .hbm => 80
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S64x8, .f32⟩
  | .hbm, ⟨11, _⟩ => ⟨S8, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S100000, .f32⟩
  | .hbm, ⟨20, _⟩ => ⟨S600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S100000x128, .f32⟩
  | .hbm, ⟨40, _⟩ => ⟨S600000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S_, .f32⟩
  | .hbm, ⟨46, _⟩ => ⟨S102400x128, .f32⟩
  | .hbm, ⟨47, _⟩ => ⟨S_, .i32⟩
  | .hbm, ⟨48, _⟩ => ⟨S_, .f32⟩
  | .hbm, ⟨49, _⟩ => ⟨S102400x128, .f32⟩
  | .hbm, ⟨50, _⟩ => ⟨S102400x128, .f32⟩
  | .hbm, ⟨51, _⟩ => ⟨S100000x128, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .f32⟩
  | .hbm, ⟨61, _⟩ => ⟨S_, .f32⟩
  | .hbm, ⟨62, _⟩ => ⟨S100000x128, .f32⟩
  | .hbm, ⟨63, _⟩ => ⟨S600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S_, .f32⟩
  | .hbm, ⟨69, _⟩ => ⟨S102400x128, .f32⟩
  | .hbm, ⟨70, _⟩ => ⟨S_, .i32⟩
  | .hbm, ⟨71, _⟩ => ⟨S_, .f32⟩
  | .hbm, ⟨72, _⟩ => ⟨S102400x128, .f32⟩
  | .hbm, ⟨73, _⟩ => ⟨S102400x128, .f32⟩
  | .hbm, ⟨74, _⟩ => ⟨S100000x128, .f32⟩
  | .hbm, ⟨75, _⟩ => ⟨S_, .i32⟩
  | .hbm, ⟨76, _⟩ => ⟨S_, .f32⟩
  | .hbm, ⟨77, _⟩ => ⟨S102400x128, .f32⟩
  | .hbm, ⟨78, _⟩ => ⟨S102400x8, .f32⟩
  | .hbm, ⟨79, _⟩ => ⟨S100000x8, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S128x64, .f32⟩
  | .local _ .vmem, ⟨21, _⟩ => ⟨S64, .f32⟩
  | .local _ .vmem, ⟨22, _⟩ => ⟨S64x8, .f32⟩
  | .local _ .vmem, ⟨23, _⟩ => ⟨S8, .f32⟩
  | .local _ .vmem, ⟨24, _⟩ => ⟨S4096x8, .f32⟩
  | .local _ .vmem, ⟨25, _⟩ => ⟨S4096x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_call0_v0 : Ref sig .tc := ⟨.hbm, 45, rfl⟩
abbrev main_v25 : Ref sig .tc := ⟨.hbm, 46, rfl⟩
abbrev main_c_6 : Ref sig .tc := ⟨.hbm, 47, rfl⟩
abbrev main_call1_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_call2_v0 : Ref sig .tc := ⟨.hbm, 68, rfl⟩
abbrev main_v41 : Ref sig .tc := ⟨.hbm, 69, rfl⟩
abbrev main_c_11 : Ref sig .tc := ⟨.hbm, 70, rfl⟩
abbrev main_call3_v0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_12 : Ref sig .tc := ⟨.hbm, 75, rfl⟩
abbrev main_call4_v0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  pads_S100000x128_S102400x128_024000_000 : S100000x128.Pads (![0, 0] : Fin 2 → Nat) ![2400, 0] ![0, 0] S102400x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  slices_S102400x128_S100000x128_0_0 : S102400x128.Slices ![0, 0] S100000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  shapeCasts_S8_S1x8 : S8.ShapeCasts S1x8
  broadcasts_S1x8_S4096x8 : S1x8.Broadcasts S4096x8
  inb_S4096x8_S4096x8_0_0 : ∀ a, (![0, 0] : Fin 2 → Nat) a + S4096x8.size a ≤ S4096x8.size a
  h_S4096x8 : 0 < S4096x8.numel
  slices_S102400x8_S100000x8_0_0 : S102400x8.Slices ![0, 0] S100000x8
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x8_S4096x8_1_0_0_1_n_n_wf : DotDims.WF S4096x64 S64x8 S4096x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S102400x128.size a
  hwx0_1 : ∀ i : grid0.Coords, EltTy.bits .f32 = 32 ∨ (Rect.block (s := S102400x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S102400x128.size a
  hwx0_5 : ∀ i : grid0.Coords, EltTy.bits .f32 = 32 ∨ (Rect.block (s := S102400x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S102400x128.size a
  hwx1_0 : ∀ i : grid1.Coords, EltTy.bits .f32 = 32 ∨ (Rect.block (s := S102400x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S102400x128.size a
  hwx1_1 : ∀ i : grid1.Coords, EltTy.bits .f32 = 32 ∨ (Rect.block (s := S102400x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S102400x128.size a
  hwx1_5 : ∀ i : grid1.Coords, EltTy.bits .f32 = 32 ∨ (Rect.block (s := S102400x128) S4096x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S102400x128.size a
  hwx2_0 : ∀ i : grid2.Coords, EltTy.bits .f32 = 32 ∨ (Rect.block (s := S102400x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x8.size a ≤ S64x8.size a
  hwx2_3 : ∀ i : grid2.Coords, EltTy.bits .f32 = 32 ∨ (Rect.block (s := S64x8) S64x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8.size a ≤ S8.size a
  hwx2_4 : ∀ i : grid2.Coords, EltTy.bits .f32 = 32 ∨ (Rect.block (s := S8) S8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x8.size a ≤ S102400x8.size a
  hwx2_5 : ∀ i : grid2.Coords, EltTy.bits .f32 = 32 ∨ (Rect.block (s := S102400x8) S4096x8.size (cc2_transform_5 i) (hinb2_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x8_S4096x8_1_0_0_1_n_n : DotDims S4096x64 S64x8 S4096x8 where
  lhsContracting := [1]
  rhsContracting := [0]
  lhsNonContracting := [0]
  rhsNonContracting := [1]
  lhsBatch := []
  rhsBatch := []
  wf := dot_S4096x64_S64x8_S4096x8_1_0_0_1_n_n_wf

abbrev win0_0 : Pipeline.Window sig grid0 :=
  Pipeline.Window.ofSpec (Memref.whole main_v25) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S4096x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S100000x64 : Shape := ⟨2, ![100000, 64]⟩
abbrev S1x64 : Shape := ⟨2, ![1, 64]⟩
abbrev S100000x8 : Shape := ⟨2, ![100000, 8]⟩
abbrev S1x8 : Shape := ⟨2, ![1, 8]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S64x8, .f32⟩
  | .hbm, ⟨11, _⟩ => ⟨S8, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S100000, .f32⟩
  | .hbm, ⟨20, _⟩ => ⟨S600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S100000x128, .f32⟩
  | .hbm, ⟨40, _⟩ => ⟨S600000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S_, .f32⟩
  | .hbm, ⟨63, _⟩ => ⟨S100000x128, .f32⟩
  | .hbm, ⟨64, _⟩ => ⟨S600000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S100000x8, .f32⟩
  | .hbm, ⟨85, _⟩ => ⟨S1x8, .f32⟩
  | .hbm, ⟨86, _⟩ => ⟨S100000x8, .f32⟩
  | .hbm, ⟨87, _⟩ => ⟨S100000x8, .f32⟩
  | .hbm, ⟨88, _⟩ => ⟨S_, .f32⟩
  | .hbm, ⟨89, _⟩ => ⟨S100000x8, .f32⟩
  | .hbm, ⟨90, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call2_cst : Ref sig .tc := ⟨.hbm, 81, rfl⟩
abbrev main_call2_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call3_cst : Ref sig .tc := ⟨.hbm, 88, rfl⟩
abbrev main_call3_v0 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x8_S100000x8_1_0_0_1_n_n_wf : DotDims.WF S100000x64 S64x8 S100000x8 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf

class Facts : Prop extends Facts₀ where

variable [Facts]
-- ==== Proof.Layers.lean ====
/-
  The network both programs compute, as named functions.

  Two mean-aggregating graph layers and a two-layer head over 100000 nodes of 128 features.  A layer sends
  node features `h` to  relu(agg · Wl + bl + h · Wr)  where  agg = (Σ over edges into the node of h[source]) · 1/max(deg, 1).
  The aggregation (`meanAgg`: index normalisation, gather, scatter-add, scaling by the inverse degree) is carried
  as ONE function of the edge list and the features: both programs apply it verbatim, so nothing here opens it.

  At the ideal values a row of a layer is a plain expression over the extended reals (`sageK`, `sageR`,
  `headRow`): the two programs differ only in where the bias joins the two matrix products,
  (P + Q) + b  against  (P + b) + Q, which commutativity and associativity of + settle (`sageK_eq_sageR`); no
  distributivity is used, so infinities need no care.
-/
import proofs.«140829_j47588237639689_1_alg».proof.Proof.Gen.KernelIdeal
import proofs.«140829_j47588237639689_1_alg».proof.Proof.Gen.ReferenceIdeal
import Idealize.ShloMosaic.PureOps.Ideal
import Idealize.ShloMosaic.Lib.ValueIdx

noncomputable section

namespace Cert.Gnn

open Idealize.ShloMosaic Cert.ReferenceIdeal Cert.ReferenceIdeal.Gen

variable {F : FTy → Type} [FloatOps F]

/-! ## The shared aggregation and the reference's layers, for any float values -/

/-- The edge sources: row 0 of the edge list. -/
def srcRow (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- The edge targets: row 1 of the edge list. -/
def dstRow (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- 1 / max(in-degree, 1), as a column. -/
def invDeg (e : (⟨S2x600000, .i32⟩ : BufTy).Contents (Elt F)) : (⟨S100000x1, .f32⟩ : BufTy).Contents (Elt F) :=
  broadcastInDim S100000x1 ![0] bcast_S100000_S100000x1_0 (Host.divf (broadcastInDim S100000 ![] bcast_S_S100000 (constant S_ .f32 0x3F800000#32)) (maximumf (Host.scatterAdd scatter_S100000_S600000x1_S600000_n_0_0_1 (broadcastInDim S100000 ![] bcast_S_S100000 (constant S_ .f32 0x00000000#32)) (broadcastInDim S600000x1 ![0] bcast_S600000_S600000x1_0 (dstRow e)) (broadcastInDim S600000 ![] bcast_S_S600000 (constant S_ .f32 0x3F800000#32))) (broadcastInDim S100000 ![] bcast_S_S100000 (constant S_ .f32 0x3F800000#32))))

/-- Mean over in-neighbours: gather the source rows (a negative source index counted from the end), add them
    into the target rows, scale each row by the inverse degree. -/
def meanAgg (e : (⟨S2x600000, .i32⟩ : BufTy).Contents (Elt F)) (h : (⟨S100000x128, .f32⟩ : BufTy).Contents (Elt F)) :
    (⟨S100000x128, .f32⟩ : BufTy).Contents (Elt F) :=
  mulf (Host.scatterAdd scatter_S100000x128_S600000x1_S600000x128_1_0_0_1 (broadcastInDim S100000x128 ![] bcast_S_S100000x128 (constant S_ .f32 0x00000000#32)) (broadcastInDim S600000x1 ![0] bcast_S600000_S600000x1_0 (dstRow e)) (Host.gather gather_S100000x128_S600000x1_S600000x128_1_0_n_n_0_1_1128 h (broadcastInDim S600000x1 ![0] bcast_S600000_S600000x1_0 (select (cmpi .slt (srcRow e) (broadcastInDim S600000 ![] bcast_S_S600000 (constantI S_ 32 0#32))) (addi (srcRow e) (broadcastInDim S600000 ![] bcast_S_S600000 (constantI S_ 32 100000#32))) (srcRow e))))) (broadcastInDim S100000x128 ![0, 1] bcast_S100000x1_S100000x128_0_1 (invDeg e))

/-- One graph layer as the reference writes it: relu((agg · Wl + bl) + h · Wr). -/
def sageRef (A H : (⟨S100000x128, .f32⟩ : BufTy).Contents (Elt F)) (Wl : (⟨S128x128, .f32⟩ : BufTy).Contents (Elt F))
    (bl : (⟨S128, .f32⟩ : BufTy).Contents (Elt F)) (Wr : (⟨S128x128, .f32⟩ : BufTy).Contents (Elt F)) :
    (⟨S100000x128, .f32⟩ : BufTy).Contents (Elt F) :=
  maximumf (addf (addf (Host.dotGeneral dot_S100000x128_S128x128_S100000x128_1_0_0_1_n_n none A Wl) (broadcastInDim S100000x128 ![0, 1] bcast_S1x128_S100000x128_0_1 (broadcastInDim S1x128 ![1] bcast_S128_S1x128_1 bl))) (Host.dotGeneral dot_S100000x128_S128x128_S100000x128_1_0_0_1_n_n none H Wr)) (broadcastInDim S100000x128 ![] bcast_S_S100000x128 (constant S_ .f32 0x00000000#32))

/-- The head as the reference writes it: relu(relu(h · W0 + b0) · W1 + b1). -/
def headRef (H : (⟨S100000x128, .f32⟩ : BufTy).Contents (Elt F)) (W0 : (⟨S128x64, .f32⟩ : BufTy).Contents (Elt F))
    (b0 : (⟨S64, .f32⟩ : BufTy).Contents (Elt F)) (W1 : (⟨S64x8, .f32⟩ : BufTy).Contents (Elt F))
    (b1 : (⟨S8, .f32⟩ : BufTy).Contents (Elt F)) : (⟨S100000x8, .f32⟩ : BufTy).Contents (Elt F) :=
  maximumf (addf (Host.dotGeneral dot_S100000x64_S64x8_S100000x8_1_0_0_1_n_n none (maximumf (addf (Host.dotGeneral dot_S100000x128_S128x64_S100000x64_1_0_0_1_n_n none H W0) (broadcastInDim S100000x64 ![0, 1] bcast_S1x64_S100000x64_0_1 (broadcastInDim S1x64 ![1] bcast_S64_S1x64_1 b0))) (broadcastInDim S100000x64 ![] bcast_S_S100000x64 (constant S_ .f32 0x00000000#32))) W1) (broadcastInDim S100000x8 ![0, 1] bcast_S1x8_S100000x8_0_1 (broadcastInDim S1x8 ![1] bcast_S8_S1x8_1 b1))) (broadcastInDim S100000x8 ![] bcast_S_S100000x8 (constant S_ .f32 0x00000000#32))

/-- The whole network: two layers, each fed the mean aggregation of its own input, then the head. -/
def gnn (x : (⟨S100000x128, .f32⟩ : BufTy).Contents (Elt F)) (e : (⟨S2x600000, .i32⟩ : BufTy).Contents (Elt F))
    (Wl0 : (⟨S128x128, .f32⟩ : BufTy).Contents (Elt F)) (bl0 : (⟨S128, .f32⟩ : BufTy).Contents (Elt F)) (Wr0 : (⟨S128x128, .f32⟩ : BufTy).Contents (Elt F))
    (Wl1 : (⟨S128x128, .f32⟩ : BufTy).Contents (Elt F)) (bl1 : (⟨S128, .f32⟩ : BufTy).Contents (Elt F)) (Wr1 : (⟨S128x128, .f32⟩ : BufTy).Contents (Elt F))
    (W0 : (⟨S128x64, .f32⟩ : BufTy).Contents (Elt F)) (b0 : (⟨S64, .f32⟩ : BufTy).Contents (Elt F))
    (W1 : (⟨S64x8, .f32⟩ : BufTy).Contents (Elt F)) (b1 : (⟨S8, .f32⟩ : BufTy).Contents (Elt F)) :
    (⟨S100000x8, .f32⟩ : BufTy).Contents (Elt F) :=
  headRef (sageRef (meanAgg e (sageRef (meanAgg e x) x Wl0 bl0 Wr0)) (sageRef (meanAgg e x) x Wl0 bl0 Wr0) Wl1 bl1 Wr1) W0 b0 W1 b1

/-! ## A row of a layer at the ideal values -/

/-- The kernel's order: relu((Σ a·Wl + Σ h·Wr) + bl) at output column `q`, from the node's aggregated row `a` and its own row `h`. -/
def sageK (a h : Fin 128 → EReal) (Wl Wr : FVec Ideal S128x128 .f32) (bl : FVec Ideal S128 .f32) (q : Fin 128) : EReal :=
  max (((∑ k : Fin 128, a k * Wl (ValueIdx.ix2 k q)) + (∑ k : Fin 128, h k * Wr (ValueIdx.ix2 k q))) + bl (ValueIdx.ix1 q)) (Ideal.ofBits .f32 0x00000000#32)

/-- The reference's order: relu((Σ a·Wl + bl) + Σ h·Wr). -/
def sageR (a h : Fin 128 → EReal) (Wl Wr : FVec Ideal S128x128 .f32) (bl : FVec Ideal S128 .f32) (q : Fin 128) : EReal :=
  max (((∑ k : Fin 128, a k * Wl (ValueIdx.ix2 k q)) + bl (ValueIdx.ix1 q)) + (∑ k : Fin 128, h k * Wr (ValueIdx.ix2 k q))) (Ideal.ofBits .f32 0x00000000#32)

/-- The two orders agree: (P + Q) + b = (P + b) + Q in any commutative additive monoid, the extended reals included. -/
theorem sageK_eq_sageR (a h : Fin 128 → EReal) (Wl Wr : FVec Ideal S128x128 .f32) (bl : FVec Ideal S128 .f32) (q : Fin 128) :
    sageK a h Wl Wr bl q = sageR a h Wl Wr bl q := by
  unfold sageK sageR
  rw [add_right_comm]

/-- The head at output column `q` from the node's row `h`: relu(Σ_j relu(Σ_k h k · W0[k, j] + b0 j) · W1[j, q] + b1 q). -/
def headRow (h : Fin 128 → EReal) (W0 : FVec Ideal S128x64 .f32) (b0 : FVec Ideal S64 .f32) (W1 : FVec Ideal S64x8 .f32)
    (b1 : FVec Ideal S8 .f32) (q : Fin 8) : EReal :=
  max ((∑ j : Fin 64, max ((∑ k : Fin 128, h k * W0 (ValueIdx.ix2 k j)) + b0 (ValueIdx.ix1 j)) (Ideal.ofBits .f32 0x00000000#32) * W1 (ValueIdx.ix2 j q)) + b1 (ValueIdx.ix1 q)) (Ideal.ofBits .f32 0x00000000#32)

/-! ## The kernels' whole output arrays (102400 rows: the node rows padded to a multiple of the 4096-row block) -/

/-- A layer kernel's output array from its two row-blocked operands: row by row, `sageK`. -/
def sageArr (A H : FVec Ideal Cert.KernelIdeal.S102400x128 .f32) (Wl : FVec Ideal S128x128 .f32) (bl : FVec Ideal S128 .f32)
    (Wr : FVec Ideal S128x128 .f32) : FVec Ideal Cert.KernelIdeal.S102400x128 .f32 :=
  fun i => sageK (fun k => A (ValueIdx.ix2 (⟨(i 0).val, (i 0).isLt⟩ : Fin 102400) k)) (fun k => H (ValueIdx.ix2 (⟨(i 0).val, (i 0).isLt⟩ : Fin 102400) k))
    Wl Wr bl ⟨(i 1).val, (i 1).isLt⟩

/-- The head kernel's output array: row by row, `headRow`. -/
def headArr (H : FVec Ideal Cert.KernelIdeal.S102400x128 .f32) (W0 : FVec Ideal S128x64 .f32) (b0 : FVec Ideal S64 .f32)
    (W1 : FVec Ideal S64x8 .f32) (b1 : FVec Ideal S8 .f32) : FVec Ideal Cert.KernelIdeal.S102400x8 .f32 :=
  fun i => headRow (fun k => H (ValueIdx.ix2 (⟨(i 0).val, (i 0).isLt⟩ : Fin 102400) k)) W0 b0 W1 b1 ⟨(i 1).val, (i 1).isLt⟩

end Cert.Gnn

end
-- ==== Proof.RefSide.lean ====
/-
  The reference's result is the network `gnn` of its arguments; and a layer of the network read at an index.
-/
import proofs.«140829_j47588237639689_1_alg».proof.Proof.Gen.ReferenceIdeal.Read
import proofs.«140829_j47588237639689_1_alg».proof.Proof.Layers
import Idealize.ShloMosaic.Lib.Pipeline.Value
import Idealize.ShloMosaic.Lib.ValueIdx
import Idealize.ShloMosaic.Lib.KernelVsHost
import Idealize.ShloMosaic.PureOps.Ideal.Laws

noncomputable section

namespace Cert.Gnn.RefSide

open Idealize.ShloMosaic Idealize.ShloMosaic.TcCoe Idealize.SL.Sem Cert.ReferenceIdeal Cert.ReferenceIdeal.Gen Cert.Gnn

/-! ## The result term is the network -/

theorem ref_result (m : (ℓ : Loc nD τ sig) → Buf (Elt Ideal) ℓ) (c : Dev nD) :
    Cert.ReferenceIdeal.Value.res_main_v60 (F := Ideal) m c
      = gnn (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  -- the network's layers were cut out of the result's composed term: unfolded, the two sides are the same term
  unfold Cert.ReferenceIdeal.Value.res_main_v60 gnn headRef sageRef meanAgg invDeg srcRow dstRow
  rfl

/-! ## A graph layer at an index -/

theorem sageRef_apply (A H : FVec Ideal S100000x128 .f32) (Wl : FVec Ideal S128x128 .f32) (bl : FVec Ideal S128 .f32)
    (Wr : FVec Ideal S128x128 .f32) (r : Fin 100000) (q : Fin 128) :
    sageRef (F := Ideal) A H Wl bl Wr (ValueIdx.ix2 r q)
      = sageR (fun k => A (ValueIdx.ix2 r k)) (fun k => H (ValueIdx.ix2 r k)) Wl Wr bl q := by
  have h : sageRef (F := Ideal) A H Wl bl Wr
      = maximumf (F := Ideal) (addf (F := Ideal) (addf (F := Ideal) (Read.val_main_v29 (F := Ideal) A Wl) (Read.val_main_v27 (F := Ideal) bl)) (Read.val_main_v29 (F := Ideal) H Wr)) (Read.val_main_call0_v0 (F := Ideal)) := rfl
  rw [h]
  -- maximum and sum read at the index: relu((P + b) + Q) with each term at (r, q)
  show max ((Read.val_main_v29 (F := Ideal) A Wl (ValueIdx.ix2 r q) + Read.val_main_v27 (F := Ideal) bl (ValueIdx.ix2 r q)) + Read.val_main_v29 (F := Ideal) H Wr (ValueIdx.ix2 r q))
      (Read.val_main_call0_v0 (F := Ideal) (ValueIdx.ix2 r q)) = _
  rw [Read.val_main_v29_apply, Read.val_main_v29_apply, Read.val_main_v27_apply, Read.val_main_v26_apply,
    Read.val_main_call0_v0_apply, Read.val_main_call0_cst_apply]
  -- the contraction reads row r of the left operand and column q of the right; the bias reads entry q
  have el : ∀ k : Fin 128, Read.lidx_main_v29 (ValueIdx.ix2 r q) k = ValueIdx.ix2 r k := fun k =>
    funext fun a => Fin.ext (by match a with | ⟨0, _⟩ => rfl | ⟨1, _⟩ => rfl)
  have er : ∀ k : Fin 128, Read.ridx_main_v29 (ValueIdx.ix2 r q) k = ValueIdx.ix2 k q := fun k =>
    funext fun a => Fin.ext (by match a with | ⟨0, _⟩ => rfl | ⟨1, _⟩ => rfl)
  have eb : Read.idx_main_v26 (Read.idx_main_v27 (ValueIdx.ix2 r q)) = ValueIdx.ix1 q :=
    funext fun a => Fin.ext (by match a with | ⟨0, _⟩ => rfl)
  simp only [el, er, eb]
  rfl

/-! ## The head at an index -/

/-- The head's first matrix product at an index, for any two operands: the sum over the 128 contracted features. -/
theorem dotA_apply (X : FVec Ideal S100000x128 .f32) (W : FVec Ideal S128x64 .f32) (i : S100000x64.Idx) :
    Host.dotGeneral (F := Ideal) dot_S100000x128_S128x64_S100000x64_1_0_0_1_n_n none X W i
      = ∑ k : Fin 128, X (Read.lidx_main_v51 i k) * W (Read.ridx_main_v51 i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = Read.lidx_main_v51 i k := funext fun a => Fin.ext (by
    match a with
    | ⟨0, _⟩ => exact Read.lhs_main_v51_0 _ _
    | ⟨1, _⟩ => exact (Read.lhs_main_v51_1 _ _).trans hk)
  have er : dot_S100000x128_S128x64_S100000x64_1_0_0_1_n_n.rhsIdx i ((ValueIdx.contrEquiv1 dot_S100000x128_S128x64_S100000x64_1_0_0_1_n_n 128 rfl rfl).symm k) = Read.ridx_main_v51 i k := funext fun a => Fin.ext (by
    match a with
    | ⟨0, _⟩ => exact (Read.rhs_main_v51_0 _ _).trans hk
    | ⟨1, _⟩ => exact Read.rhs_main_v51_1 _ _)
  rw [el, er]

/-- The head's second matrix product at an index, for any two operands: the sum over the 64 contracted features. -/
theorem dotB_apply (Y : FVec Ideal S100000x64 .f32) (W : FVec Ideal S64x8 .f32) (i : S100000x8.Idx) :
    Host.dotGeneral (F := Ideal) dot_S100000x64_S64x8_S100000x8_1_0_0_1_n_n none Y W i
      = ∑ k : Fin 64, Y (Read.lidx_main_v56 i k) * W (Read.ridx_main_v56 i k) := by
  simp only [Host.dotGeneral]
  rw [Ideal.dotGeneral_apply, ← Equiv.sum_comp (ValueIdx.contrEquiv1 dot_S100000x64_S64x8_S100000x8_1_0_0_1_n_n 64 rfl rfl).symm]
  refine Finset.sum_congr rfl fun k _ => ?_
  have hk := ValueIdx.contrEquiv1_symm_val dot_S100000x64_S64x8_S100000x8_1_0_0_1_n_n 64 rfl rfl k
  have el : dot_S100000x64_S64x8_S100000x8_1_0_0_1_n_n.lhsIdx i ((ValueIdx.contrEquiv1 dot_S100000x64_S64x8_S100000x8_1_0_0_1_n_n 64 rfl rfl).symm k) = Read.lidx_main_v56 i k := funext fun a => Fin.ext (by
    match a with
    | ⟨0, _⟩ => exact Read.lhs_main_v56_0 _ _
    | ⟨1, _⟩ => exact (Read.lhs_main_v56_1 _ _).trans hk)
  have er : dot_S100000x64_S64x8_S100000x8_1_0_0_1_n_n.rhsIdx i ((ValueIdx.contrEquiv1 dot_S100000x64_S64x8_S100000x8_1_0_0_1_n_n 64 rfl rfl).symm k) = Read.ridx_main_v56 i k := funext fun a => Fin.ext (by
    match a with
    | ⟨0, _⟩ => exact (Read.rhs_main_v56_0 _ _).trans hk
    | ⟨1, _⟩ => exact Read.rhs_main_v56_1 _ _)
  rw [el, er]

/-- The head's hidden layer at an index: relu(Σ_k h[r, k] · W0[k, j] + b0 j). -/
theorem hidden_apply (H : FVec Ideal S100000x128 .f32) (W0 : FVec Ideal S128x64 .f32) (b0 : FVec Ideal S64 .f32)
    (r : Fin 100000) (j : Fin 64) :
    maximumf (F := Ideal) (addf (F := Ideal) (Host.dotGeneral (F := Ideal) dot_S100000x128_S128x64_S100000x64_1_0_0_1_n_n none H W0) (Read.val_main_v53 (F := Ideal) b0))
        (Read.val_main_call2_v0 (F := Ideal)) (ValueIdx.ix2 r j)
      = max ((∑ k : Fin 128, H (ValueIdx.ix2 r k) * W0 (ValueIdx.ix2 k j)) + b0 (ValueIdx.ix1 j)) (Ideal.ofBits .f32 0x00000000#32) := by
  show max (Host.dotGeneral (F := Ideal) dot_S100000x128_S128x64_S100000x64_1_0_0_1_n_n none H W0 (ValueIdx.ix2 r j) + Read.val_main_v53 (F := Ideal) b0 (ValueIdx.ix2 r j))
      (Read.val_main_call2_v0 (F := Ideal) (ValueIdx.ix2 r j)) = _
  rw [dotA_apply, Read.val_main_v53_apply, Read.val_main_v52_apply, Read.val_main_call2_v0_apply, Read.val_main_call2_cst_apply]
  have el : ∀ k : Fin 128, Read.lidx_main_v51 (ValueIdx.ix2 r j) k = ValueIdx.ix2 r k := fun k =>
    funext fun a => Fin.ext (by match a with | ⟨0, _⟩ => rfl | ⟨1, _⟩ => rfl)
  have er : ∀ k : Fin 128, Read.ridx_main_v51 (ValueIdx.ix2 r j) k = ValueIdx.ix2 k j := fun k =>
    funext fun a => Fin.ext (by match a with | ⟨0, _⟩ => rfl | ⟨1, _⟩ => rfl)
  have eb : Read.idx_main_v52 (Read.idx_main_v53 (ValueIdx.ix2 r j)) = ValueIdx.ix1 j :=
    funext fun a => Fin.ext (by match a with | ⟨0, _⟩ => rfl)
  simp only [el, er, eb]
  rfl

theorem headRef_apply (H : FVec Ideal S100000x128 .f32) (W0 : FVec Ideal S128x64 .f32) (b0 : FVec Ideal S64 .f32)
    (W1 : FVec Ideal S64x8 .f32) (b1 : FVec Ideal S8 .f32) (r : Fin 100000) (q : Fin 8) :
    headRef (F := Ideal) H W0 b0 W1 b1 (ValueIdx.ix2 r q)
      = headRow (fun k => H (ValueIdx.ix2 r k)) W0 b0 W1 b1 q := by
  have h : headRef (F := Ideal) H W0 b0 W1 b1
      = maximumf (F := Ideal) (addf (F := Ideal) (Host.dotGeneral (F := Ideal) dot_S100000x64_S64x8_S100000x8_1_0_0_1_n_n none
          (maximumf (F := Ideal) (addf (F := Ideal) (Host.dotGeneral (F := Ideal) dot_S100000x128_S128x64_S100000x64_1_0_0_1_n_n none H W0) (Read.val_main_v53 (F := Ideal) b0))
            (Read.val_main_call2_v0 (F := Ideal))) W1) (Read.val_main_v58 (F := Ideal) b1)) (Read.val_main_call3_v0 (F := Ideal)) := rfl
  rw [h]
  -- the hidden layer is carried as one array Y until the outer product has been read at (r, q)
  generalize hY : maximumf (F := Ideal) (addf (F := Ideal) (Host.dotGeneral (F := Ideal) dot_S100000x128_S128x64_S100000x64_1_0_0_1_n_n none H W0) (Read.val_main_v53 (F := Ideal) b0))
            (Read.val_main_call2_v0 (F := Ideal)) = Y
  show max (Host.dotGeneral (F := Ideal) dot_S100000x64_S64x8_S100000x8_1_0_0_1_n_n none Y W1 (ValueIdx.ix2 r q) + Read.val_main_v58 (F := Ideal) b1 (ValueIdx.ix2 r q))
      (Read.val_main_call3_v0 (F := Ideal) (ValueIdx.ix2 r q)) = _
  rw [dotB_apply, Read.val_main_v58_apply, Read.val_main_v57_apply, Read.val_main_call3_v0_apply, Read.val_main_call3_cst_apply]
  have el : ∀ j : Fin 64, Read.lidx_main_v56 (ValueIdx.ix2 r q) j = ValueIdx.ix2 r j := fun j =>
    funext fun a => Fin.ext (by match a with | ⟨0, _⟩ => rfl | ⟨1, _⟩ => rfl)
  have er : ∀ j : Fin 64, Read.ridx_main_v56 (ValueIdx.ix2 r q) j = ValueIdx.ix2 j q := fun j =>
    funext fun a => Fin.ext (by match a with | ⟨0, _⟩ => rfl | ⟨1, _⟩ => rfl)
  have eb : Read.idx_main_v57 (Read.idx_main_v58 (ValueIdx.ix2 r q)) = ValueIdx.ix1 q :=
    funext fun a => Fin.ext (by match a with | ⟨0, _⟩ => rfl)
  simp only [el, er, eb]
  -- each entry Y (r, j) of the hidden layer is relu(Σ_k h[r, k] · W0[k, j] + b0 j)
  subst hY
  simp only [hidden_apply]
  rfl

end Cert.Gnn.RefSide

end
-- ==== Proof.Bridge.lean ====
/-
  Padding and cutting back.

  Each kernel runs on 102400 rows: the 100000 node rows followed by 2400 rows of padding, so that the rows split into
  25 blocks of 4096.  A row of a layer depends on the same row of its operands only, so the first 100000 rows of the
  kernel's output never see the padding value, whatever it is: cut back to 100000 rows, the kernel's layer over the
  padded operands is the reference's layer over the operands themselves.  For the graph layers the two differ in where
  the bias joins the two matrix products (`sageK_eq_sageR`); for the head they are the same expression.
-/
import proofs.«140829_j47588237639689_1_alg».proof.Proof.Layers
import proofs.«140829_j47588237639689_1_alg».proof.Proof.RefSide
import Idealize.ShloMosaic.Lib.Pipeline.Value
import Idealize.ShloMosaic.Lib.ValueIdx
import Idealize.ShloMosaic.Lib.KernelVsHost

noncomputable section

namespace Cert.Gnn.Bridge

open Idealize.ShloMosaic Cert.KernelIdeal Cert.KernelIdeal.Gen Cert.Gnn

variable {F : FTy → Type} [FloatOps F]

/-- The node rows followed by 2400 rows of the padding value. -/
def padK (x : (⟨S100000x128, .f32⟩ : BufTy).Contents (Elt F)) (z : (⟨S_, .f32⟩ : BufTy).Contents (Elt F)) :
    (⟨S102400x128, .f32⟩ : BufTy).Contents (Elt F) :=
  pad S102400x128 ![0, 0] ![2400, 0] ![0, 0] x z pads_S100000x128_S102400x128_024000_000 h_S_

/-- The first 100000 rows of a 128-column array. -/
def cutK (y : (⟨S102400x128, .f32⟩ : BufTy).Contents (Elt F)) : (⟨S100000x128, .f32⟩ : BufTy).Contents (Elt F) :=
  extractStridedSlice S100000x128 ![0, 0] y slices_S102400x128_S100000x128_0_0

/-- The first 100000 rows of an 8-column array. -/
def cutK8 (y : (⟨S102400x8, .f32⟩ : BufTy).Contents (Elt F)) : (⟨S100000x8, .f32⟩ : BufTy).Contents (Elt F) :=
  extractStridedSlice S100000x8 ![0, 0] y slices_S102400x8_S100000x8_0_0

/-- A node row of the padded array is the node row. -/
theorem padK_apply (x : (⟨S100000x128, .f32⟩ : BufTy).Contents (Elt F)) (z : (⟨S_, .f32⟩ : BufTy).Contents (Elt F))
    (r : Fin 100000) (k : Fin 128) :
    padK x z (ValueIdx.ix2 (⟨r.val, by have := r.isLt; omega⟩ : Fin 102400) k) = x (ValueIdx.ix2 r k) := by
  unfold padK
  exact pad_apply_of_inside ![0, 0] ![2400, 0] ![0, 0] x z pads_S100000x128_S102400x128_024000_000 h_S_
    (ValueIdx.ix2 (⟨r.val, by have := r.isLt; omega⟩ : Fin 102400) k) (ValueIdx.ix2 r k)
    (fun a => by
      match a with
      | ⟨0, _⟩ => show r.val = 0 + r.val * (0 + 1); omega
      | ⟨1, _⟩ => show k.val = 0 + k.val * (0 + 1); omega)

/-- A node row of the cut is the same row of the array. -/
theorem cutK_apply (y : (⟨S102400x128, .f32⟩ : BufTy).Contents (Elt F)) (r : Fin 100000) (q : Fin 128) :
    cutK y (ValueIdx.ix2 r q) = y (ValueIdx.ix2 (⟨r.val, by have := r.isLt; omega⟩ : Fin 102400) q) := by
  unfold cutK
  exact extractStridedSlice_apply ![0, 0] y slices_S102400x128_S100000x128_0_0 (ValueIdx.ix2 r q)
    (ValueIdx.ix2 (⟨r.val, by have := r.isLt; omega⟩ : Fin 102400) q)
    (fun a => by
      match a with
      | ⟨0, _⟩ => show r.val = 0 + r.val; omega
      | ⟨1, _⟩ => show q.val = 0 + q.val; omega)

theorem cutK8_apply (y : (⟨S102400x8, .f32⟩ : BufTy).Contents (Elt F)) (r : Fin 100000) (q : Fin 8) :
    cutK8 y (ValueIdx.ix2 r q) = y (ValueIdx.ix2 (⟨r.val, by have := r.isLt; omega⟩ : Fin 102400) q) := by
  unfold cutK8
  exact extractStridedSlice_apply ![0, 0] y slices_S102400x8_S100000x8_0_0 (ValueIdx.ix2 r q)
    (ValueIdx.ix2 (⟨r.val, by have := r.isLt; omega⟩ : Fin 102400) q)
    (fun a => by
      match a with
      | ⟨0, _⟩ => show r.val = 0 + r.val; omega
      | ⟨1, _⟩ => show q.val = 0 + q.val; omega)

/-- The layer kernel's array over padded operands, cut back, is the reference's layer: row by row the padding is
    never read, and the bias may join the two products in either place. -/
theorem cut_sage (A H : FVec Ideal S100000x128 .f32) (z z' : FVec Ideal S_ .f32) (Wl : FVec Ideal S128x128 .f32)
    (bl : FVec Ideal S128 .f32) (Wr : FVec Ideal S128x128 .f32) :
    cutK (F := Ideal) (sageArr (padK (F := Ideal) A z) (padK (F := Ideal) H z') Wl bl Wr) = sageRef (F := Ideal) A H Wl bl Wr := by
  funext i
  obtain ⟨r, q, rfl⟩ : ∃ (r : Fin 100000) (q : Fin 128), i = ValueIdx.ix2 r q := ⟨i 0, i 1, ValueIdx.eq_ix2 i⟩
  rw [RefSide.sageRef_apply, ← sageK_eq_sageR, cutK_apply]
  unfold sageArr
  show sageK (fun k => padK (F := Ideal) A z (ValueIdx.ix2 (⟨r.val, _⟩ : Fin 102400) k))
      (fun k => padK (F := Ideal) H z' (ValueIdx.ix2 (⟨r.val, _⟩ : Fin 102400) k)) Wl Wr bl q = _
  simp only [padK_apply]

/-- The head kernel's array over the padded operand, cut back, is the reference's head. -/
theorem cut_head (H : FVec Ideal S100000x128 .f32) (z : FVec Ideal S_ .f32) (W0 : FVec Ideal S128x64 .f32)
    (b0 : FVec Ideal S64 .f32) (W1 : FVec Ideal S64x8 .f32) (b1 : FVec Ideal S8 .f32) :
    cutK8 (F := Ideal) (headArr (padK (F := Ideal) H z) W0 b0 W1 b1) = headRef (F := Ideal) H W0 b0 W1 b1 := by
  funext i
  obtain ⟨r, q, rfl⟩ : ∃ (r : Fin 100000) (q : Fin 8), i = ValueIdx.ix2 r q := ⟨i 0, i 1, ValueIdx.eq_ix2 i⟩
  rw [RefSide.headRef_apply, cutK8_apply]
  unfold headArr
  show headRow (fun k => padK (F := Ideal) H z (ValueIdx.ix2 (⟨r.val, _⟩ : Fin 102400) k)) W0 b0 W1 b1 q = _
  simp only [padK_apply]

end Cert.Gnn.Bridge

end
-- ==== Proof.Sage0.lean ====
/-
  Region 0 (the first graph layer's dense kernel): what its output array holds after the run.
-/
import proofs.«140829_j47588237639689_1_alg».proof.Proof.Gen.KernelIdeal.Frame
import proofs.«140829_j47588237639689_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.Gnn.Sage0

open Idealize.ShloMosaic Idealize.ShloMosaic.TcCoe Idealize.SL.Sem Cert.KernelIdeal Cert.KernelIdeal.Gen Cert.Gnn
open Idealize.ShloMosaic.Pipeline (Dat)

variable (V : (c : Dev nD) → (b : Ref sig .tc) → Buf (Elt Ideal) ((c : Thread nD τ).loc b))

/-! ## The two matrix products' contraction, re-indexed to the shared axis

The record contracts axis 1 of the left operand with axis 0 of the right one; at output index (p, q) and contraction
index k the operands are read at (p, k) and (k, q). -/

theorem lhs_dot_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_dot_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_dot_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_dot_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A matrix product into the zero accumulator, read at (p, q): Σ_k a[p, k] · w[k, q]. -/
theorem matmul_at (a : FVec Ideal S4096x128 .bf16) (w : FVec Ideal S128x128 .bf16) (p : Fin 4096) (q : Fin 128) :
    FloatOps.matmul dot_S4096x128_S128x128_S4096x128_1_0_0_1_n_n none a w (constant (F := Ideal) S4096x128 .f32 0x00000000#32) (ValueIdx.ix2 p q)
      = ∑ k : Fin 128, a (ValueIdx.ix2 p k) * w (ValueIdx.ix2 k q) := by
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ValueIdx.ix2 p q) ((ValueIdx.contrEquiv1 dot_S4096x128_S128x128_S4096x128_1_0_0_1_n_n 128 rfl rfl).symm k) = ValueIdx.ix2 p k := funext fun a => Fin.ext (by
    match a with
    | ⟨0, _⟩ => exact lhs_dot_0 _ _
    | ⟨1, _⟩ => exact (lhs_dot_1 _ _).trans hk)
  have er : dot_S4096x128_S128x128_S4096x128_1_0_0_1_n_n.rhsIdx (ValueIdx.ix2 p q) ((ValueIdx.contrEquiv1 dot_S4096x128_S128x128_S4096x128_1_0_0_1_n_n 128 rfl rfl).symm k) = ValueIdx.ix2 k q := funext fun a => Fin.ext (by
    match a with
    | ⟨0, _⟩ => exact (rhs_dot_0 _ _).trans hk
    | ⟨1, _⟩ => exact rhs_dot_1 _ _)
  rw [el, er]

theorem pay (x0 x1 : Vec Ideal S4096x128 .f32) (x2 x4 : Vec Ideal S128x128 .f32) (x3 : Vec Ideal S128 .f32) (p : Fin 4096) (q : Fin 128) :
    k0_pay1 (F := Ideal) x0 x1 x2 x4 x3 (ValueIdx.ix2 p q)
      = sageK (fun k => x0 (ValueIdx.ix2 p k)) (fun k => x1 (ValueIdx.ix2 p k)) x2 x4 x3 q := by
  unfold k0_pay1 sageK
  simp only [shapeCast_self]
  refine (ValueIdx.maximumf_apply _ _ _).trans ?_
  refine congrArg₂ max ?_ rfl
  refine (ValueIdx.addf_apply _ _ _).trans ?_
  refine congrArg₂ (· + ·) ?_ ?_
  · refine (ValueIdx.addf_apply _ _ _).trans ?_
    exact congrArg₂ (· + ·) (matmul_at _ _ p q) (matmul_at _ _ p q)
  · exact (ValueIdx.broadcastTo_1b_ab_apply _ _ p q).trans (ValueIdx.shapeCast_a_1a_apply x3 _ 0 q)

/-! ## From the blocks to the array -/

/-- The zero offsets of a whole-buffer access, rank 2 and rank 1. -/
theorem offsets2_zero : (![0, 0] : Fin 2 → Nat) = fun _ => 0 := funext fun a => by fin_cases a <;> rfl
theorem offsets1_zero : (![0] : Fin 1 → Nat) = fun _ => 0 := funext fun a => by fin_cases a <;> rfl

/-- The printed index maps over the 25 points: the two row-blocked operands and the output sit at block (t, 0), the
    weights and the bias at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The payload at an index of the block, from what its operands are rows of: the node's row of the two row-blocked
    arrays, the weights and the bias whole. -/
theorem block_value (x0 x1 : Vec Ideal S4096x128 .f32) (x2 x4 : Vec Ideal S128x128 .f32) (x3 : Vec Ideal S128 .f32)
    (A H : FVec Ideal S102400x128 .f32) (Wl : FVec Ideal S128x128 .f32) (bl : FVec Ideal S128 .f32) (Wr : FVec Ideal S128x128 .f32)
    (j : S4096x128.Idx) (i : S102400x128.Idx)
    (h0 : ∀ k : Fin 128, x0 (ValueIdx.ix2 (⟨(j 0).val, (j 0).isLt⟩ : Fin 4096) k) = A (ValueIdx.ix2 (⟨(i 0).val, (i 0).isLt⟩ : Fin 102400) k))
    (h1 : ∀ k : Fin 128, x1 (ValueIdx.ix2 (⟨(j 0).val, (j 0).isLt⟩ : Fin 4096) k) = H (ValueIdx.ix2 (⟨(i 0).val, (i 0).isLt⟩ : Fin 102400) k))
    (h2 : x2 = Wl) (h3 : x3 = bl) (h4 : x4 = Wr) (hq : (j 1).val = (i 1).val) :
    k0_pay1 (F := Ideal) x0 x1 x2 x4 x3 j = sageArr A H Wl bl Wr i := by
  subst h2 h3 h4
  have hj : j = ValueIdx.ix2 (⟨(j 0).val, (j 0).isLt⟩ : Fin 4096) (⟨(j 1).val, (j 1).isLt⟩ : Fin 128) := ValueIdx.eq_ix2 j
  have e : (⟨(j 1).val, (j 1).isLt⟩ : Fin 128) = ⟨(i 1).val, (i 1).isLt⟩ := Fin.ext hq
  rw [hj, pay, e, funext h0, funext h1]
  rfl

/-- What point t writes back is block t of the layer's array: rows 4096 t … 4096 t + 4095, every column. -/
theorem written_block (c : Dev nD) (t : Fin cfg0.N) :
    (dat0 (F := Ideal) V c).flushed 5 t = ((cfg0.win 5).blk t).view.read (Elt Ideal)
      (sageArr (V c main_v25) (V c main_v26) (V c main_arg2) (V c main_arg3) (V c main_arg4)) := by
  show (cfg0.win 5).cut (grid0.coords t) ((dat0 V c).after 5 t) = _
  rw [after0_5]
  unfold out0_5
  rw [View.canon_unit_zero offsets2_zero]
  simp only [View.ld_unit_zero (S := S4096x128) offsets2_zero, View.ld_unit_zero (S := S128x128) offsets2_zero, View.ld_unit_zero (S := S128) offsets1_zero]
  funext j
  obtain ⟨e00, e01, e10, e11, e20, e21, e30, e40, e41, e50, e51⟩ := block_indices t
  show k0_pay1 (F := Ideal) (iblk0 V c 0 t) (iblk0 V c 1 t) (iblk0 V c 2 t) (iblk0 V c 4 t) (iblk0 V c 3 t) ((cfg0.win 5).xinj (grid0.coords t) j)
    = sageArr (V c main_v25) (V c main_v26) (V c main_arg2) (V c main_arg3) (V c main_arg4) (((cfg0.win 5).blk t).view.emb j)
  refine block_value _ _ _ _ _ _ _ _ _ _ _ _ (fun k => ?_) (fun k => ?_) (funext fun y => ?_) (funext fun y => ?_) (funext fun y => ?_) ?_
  · show V c main_v25 (((cfg0.win 0).blk t).view.emb _) = _
    refine congrArg (V c main_v25) (funext fun a => Fin.ext ?_)
    match a with
    | ⟨0, _⟩ =>
      show win0_0.index t (0 : Fin 2) * 4096 + 1 * (j 0).val = win0_5.index t (0 : Fin 2) * 4096 + 1 * (j 0).val
      omega
    | ⟨1, _⟩ =>
      show win0_0.index t (1 : Fin 2) * 128 + 1 * k.val = k.val
      omega
  · show V c main_v26 (((cfg0.win 1).blk t).view.emb _) = _
    refine congrArg (V c main_v26) (funext fun a => Fin.ext ?_)
    match a with
    | ⟨0, _⟩ =>
      show win0_1.index t (0 : Fin 2) * 4096 + 1 * (j 0).val = win0_5.index t (0 : Fin 2) * 4096 + 1 * (j 0).val
      omega
    | ⟨1, _⟩ =>
      show win0_1.index t (1 : Fin 2) * 128 + 1 * k.val = k.val
      omega
  · show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · show V c main_arg3 (((cfg0.win 3).blk t).view.emb y) = V c main_arg3 y
    refine congrArg (V c main_arg3) (funext fun a => Fin.ext ?_)
    match a with
    | ⟨0, _⟩ => show win0_3.index t (0 : Fin 1) * 128 + 1 * (y 0).val = (y 0).val; omega
  · show V c main_arg4 (((cfg0.win 4).blk t).view.emb y) = V c main_arg4 y
    refine congrArg (V c main_arg4) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · show (j 1).val = win0_5.index t (1 : Fin 2) * 128 + 1 * (j 1).val
    omega

/-- An index of the array is in point t's block iff each coordinate is in the block's range on its axis. -/
theorem mem_row_block (t : Fin cfg0.N) (i : S102400x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v27).slice (win0_5.rect t)).set ↔ _
  rw [View.set_slice_whole, Rect.mem_set_unit]
  exact Iff.rfl

/-- Every row lies in the block of the point (row / 4096): 25 · 4096 = 102400 rows. -/
theorem rows_covered (i : S102400x128.Idx) :
    ∃ t : Fin cfg0.N, (cfg0.win 5).flush t = true ∧ i ∈ ((cfg0.win 5).blk t).view.set := by
  have hi0 : (i 0).val < 102400 := (i 0).isLt
  have hi1 : (i 1).val < 128 := (i 1).isLt
  have hN : grid0.N = 25 := N_0
  have ht : (i 0).val / 4096 < cfg0.N := by show (i 0).val / 4096 < grid0.N; omega
  obtain ⟨-, -, -, -, -, -, -, -, -, e50, e51⟩ := block_indices ⟨(i 0).val / 4096, ht⟩
  refine ⟨⟨(i 0).val / 4096, ht⟩, flush0_5 _, ?_⟩
  rw [mem_row_block]
  intro a
  match a with
  | ⟨0, _⟩ =>
    show win0_5.index ⟨(i 0).val / 4096, ht⟩ (0 : Fin 2) * 4096 ≤ (i 0).val ∧ (i 0).val < win0_5.index ⟨(i 0).val / 4096, ht⟩ (0 : Fin 2) * 4096 + 4096
    rw [e50]
    show (i 0).val / 4096 * 4096 ≤ (i 0).val ∧ (i 0).val < (i 0).val / 4096 * 4096 + 4096
    omega
  | ⟨1, _⟩ =>
    show win0_5.index ⟨(i 0).val / 4096, ht⟩ (1 : Fin 2) * 128 ≤ (i 1).val ∧ (i 1).val < win0_5.index ⟨(i 0).val / 4096, ht⟩ (1 : Fin 2) * 128 + 128
    omega

theorem final (c : Dev nD) :
    (dat0 (F := Ideal) V c).arrAt 5 cfg0.N
      = sageArr (V c main_v25) (V c main_v26) (V c main_arg2) (V c main_arg3) (V c main_arg4) :=
  (dat0 (F := Ideal) V c).arrAt_eq_of_cover 5 _ (fun t _ => written_block V c t) rows_covered

end Cert.Gnn.Sage0

end
-- ==== Proof.HostChain0.lean ====
/-
  The kernel program's buffers up to the first kernel's exit, read back to the arguments.

  The edge rows, the inverse degrees and the mean aggregation of the input features are computed by the host before
  the first kernel; the kernel's two row-blocked operands are the padded aggregation and the padded features. No host
  operation and no kernel writes an argument, the edge rows or the inverse degrees, so each is found later as left here.
-/
import proofs.«140829_j47588237639689_1_alg».proof.Proof.Gen.KernelIdeal.Frame
import proofs.«140829_j47588237639689_1_alg».proof.Proof.Layers
import proofs.«140829_j47588237639689_1_alg».proof.Proof.Bridge
import proofs.«140829_j47588237639689_1_alg».proof.Proof.Sage0
import Idealize.ShloMosaic.Lib.StableHlo.Run

set_option maxRecDepth 16384
-- one declaration at a time: each read-back is a pass over some forty host operations
set_option Elab.async false

noncomputable section

namespace Cert.Gnn.Chain

open Idealize.ShloMosaic Idealize.ShloMosaic.TcCoe Idealize.SL.Sem Idealize.ShloMosaic.StableHlo
open Cert.KernelIdeal Cert.KernelIdeal.Gen Cert.Gnn Cert.Gnn.Bridge

variable (m : (ℓ : Loc nD τ sig) → Buf (Elt Ideal) ℓ) (ρ : Dev nD → PrngReg) (c : Dev nD)

/-- The value the host pads with (a converted integer zero); no node row ever reads it. -/
def zpad : (⟨S_, .f32⟩ : BufTy).Contents (Elt Ideal) := sitofp (F := Ideal) .f32 (constantI S_ 32 0#32)

/-- A buffer at the first kernel's entry, read back through the four host stretches before it to the launch contents. -/
local macro "back0" : tactic => `(tactic| (
  show StableHlo.after hostOps0_3 (StableHlo.after hostOps0_2 (StableHlo.after hostOps0_1 (StableHlo.after hostOps0 (W0 _ _ _)))) _ = _
  dsimp only [hostOps0_3, hostOps0_2, hostOps0_1, hostOps0]
  after_results_simp))
/-- A buffer after the first host stretch (the edge rows, the degrees, the aggregation of the input), read back to the launch contents. -/
local macro "backA" : tactic => `(tactic| (
  show StableHlo.after hostOps0 (W0 _ _ _) _ = _
  dsimp only [hostOps0]
  after_results_simp))

/-! ## Before the first kernel -/

set_option maxHeartbeats 4000000 in
theorem w4_v1 : W4 m ρ c (Proc.devRef .tc main_v1) = srcRow (F := Ideal) (m ((c.tc : Thread nD τ).loc main_arg1)) := by back0 <;> rfl
set_option maxHeartbeats 4000000 in
theorem w4_v3 : W4 m ρ c (Proc.devRef .tc main_v3) = dstRow (F := Ideal) (m ((c.tc : Thread nD τ).loc main_arg1)) := by back0 <;> rfl
set_option maxHeartbeats 4000000 in
theorem w4_v12 : W4 m ρ c (Proc.devRef .tc main_v12) = invDeg (F := Ideal) (m ((c.tc : Thread nD τ).loc main_arg1)) := by back0 <;> rfl
set_option maxHeartbeats 4000000 in
/-- The mean aggregation of the input features, as the first host stretch leaves it. -/
theorem w1_v24 : W1 m ρ c (Proc.devRef .tc main_v24) = meanAgg (F := Ideal) (m ((c.tc : Thread nD τ).loc main_arg1)) (m ((c.tc : Thread nD τ).loc main_arg0)) := by backA <;> rfl
set_option maxHeartbeats 4000000 in
theorem w1_c5 : W1 m ρ c (Proc.devRef .tc main_c_5) = constantI S_ 32 0#32 := by backA <;> rfl
/-- The padding call in front of the first kernel's first operand, from ANY contents: the operand stays a variable. -/
theorem pads0_v25 (V : Valuation τ sig (Elt Ideal)) :
    StableHlo.after hostOps0_3 (StableHlo.after hostOps0_2 (StableHlo.after hostOps0_1 V)) (Proc.devRef .tc main_v25)
      = padK (F := Ideal) (V (Proc.devRef .tc main_v24)) (sitofp (F := Ideal) .f32 (V (Proc.devRef .tc main_c_5))) := by
  dsimp only [hostOps0_3, hostOps0_2, hostOps0_1]
  after_results_simp <;> rfl
/-- The first kernel's first operand: the padded mean aggregation of the input features. -/
theorem w4_v25 : W4 m ρ c (Proc.devRef .tc main_v25) = padK (F := Ideal) (meanAgg (F := Ideal) (m ((c.tc : Thread nD τ).loc main_arg1)) (m ((c.tc : Thread nD τ).loc main_arg0))) zpad := by
  refine (pads0_v25 (W1 m ρ c)).trans ?_
  rw [w1_v24, w1_c5] <;> rfl
set_option maxHeartbeats 4000000 in
/-- Its second operand: the padded input features. -/
theorem w4_v26 : W4 m ρ c (Proc.devRef .tc main_v26) = padK (F := Ideal) (m ((c.tc : Thread nD τ).loc main_arg0)) zpad := by back0 <;> rfl
set_option maxHeartbeats 4000000 in
theorem w4_arg2 : W4 m ρ c (Proc.devRef .tc main_arg2) = (m ((c.tc : Thread nD τ).loc main_arg2)) := by back0 <;> rfl
set_option maxHeartbeats 4000000 in
theorem w4_arg3 : W4 m ρ c (Proc.devRef .tc main_arg3) = (m ((c.tc : Thread nD τ).loc main_arg3)) := by back0 <;> rfl
set_option maxHeartbeats 4000000 in
theorem w4_arg4 : W4 m ρ c (Proc.devRef .tc main_arg4) = (m ((c.tc : Thread nD τ).loc main_arg4)) := by back0 <;> rfl
set_option maxHeartbeats 4000000 in
theorem w4_arg5 : W4 m ρ c (Proc.devRef .tc main_arg5) = (m ((c.tc : Thread nD τ).loc main_arg5)) := by back0 <;> rfl
set_option maxHeartbeats 4000000 in
theorem w4_arg6 : W4 m ρ c (Proc.devRef .tc main_arg6) = (m ((c.tc : Thread nD τ).loc main_arg6)) := by back0 <;> rfl
set_option maxHeartbeats 4000000 in
theorem w4_arg7 : W4 m ρ c (Proc.devRef .tc main_arg7) = (m ((c.tc : Thread nD τ).loc main_arg7)) := by back0 <;> rfl
set_option maxHeartbeats 4000000 in
theorem w4_arg8 : W4 m ρ c (Proc.devRef .tc main_arg8) = (m ((c.tc : Thread nD τ).loc main_arg8)) := by back0 <;> rfl
set_option maxHeartbeats 4000000 in
theorem w4_arg9 : W4 m ρ c (Proc.devRef .tc main_arg9) = (m ((c.tc : Thread nD τ).loc main_arg9)) := by back0 <;> rfl
set_option maxHeartbeats 4000000 in
theorem w4_arg10 : W4 m ρ c (Proc.devRef .tc main_arg10) = (m ((c.tc : Thread nD τ).loc main_arg10)) := by back0 <;> rfl
set_option maxHeartbeats 4000000 in
theorem w4_arg11 : W4 m ρ c (Proc.devRef .tc main_arg11) = (m ((c.tc : Thread nD τ).loc main_arg11)) := by back0 <;> rfl

/-! ## The first kernel, and the stretch after it -/

/-- The first kernel's output array. -/
theorem w5_v27 : W5 m ρ c (Proc.devRef .tc main_v27)
    = sageArr (padK (F := Ideal) (meanAgg (F := Ideal) (m ((c.tc : Thread nD τ).loc main_arg1)) (m ((c.tc : Thread nD τ).loc main_arg0))) zpad) (padK (F := Ideal) (m ((c.tc : Thread nD τ).loc main_arg0)) zpad)
        (m ((c.tc : Thread nD τ).loc main_arg2)) (m ((c.tc : Thread nD τ).loc main_arg3)) (m ((c.tc : Thread nD τ).loc main_arg4)) := by
  refine (W5_arr m ρ c 5).trans ((Sage0.final (V4 m ρ) c).trans ?_)
  show sageArr (W4 m ρ c (Proc.devRef .tc main_v25)) (W4 m ρ c (Proc.devRef .tc main_v26)) (W4 m ρ c (Proc.devRef .tc main_arg2)) (W4 m ρ c (Proc.devRef .tc main_arg3)) (W4 m ρ c (Proc.devRef .tc main_arg4)) = _
  rw [w4_v25, w4_v26, w4_arg2, w4_arg3, w4_arg4]

theorem w5_v1 : W5 m ρ c (Proc.devRef .tc main_v1) = srcRow (F := Ideal) (m ((c.tc : Thread nD τ).loc main_arg1)) := (W5_of_ne m ρ c main_v1 (by decide)).trans (w4_v1 m ρ c)
theorem w5_v3 : W5 m ρ c (Proc.devRef .tc main_v3) = dstRow (F := Ideal) (m ((c.tc : Thread nD τ).loc main_arg1)) := (W5_of_ne m ρ c main_v3 (by decide)).trans (w4_v3 m ρ c)
theorem w5_v12 : W5 m ρ c (Proc.devRef .tc main_v12) = invDeg (F := Ideal) (m ((c.tc : Thread nD τ).loc main_arg1)) := (W5_of_ne m ρ c main_v12 (by decide)).trans (w4_v12 m ρ c)
theorem w5_arg5 : W5 m ρ c (Proc.devRef .tc main_arg5) = (m ((c.tc : Thread nD τ).loc main_arg5)) := (W5_of_ne m ρ c main_arg5 (by decide)).trans (w4_arg5 m ρ c)
theorem w5_arg6 : W5 m ρ c (Proc.devRef .tc main_arg6) = (m ((c.tc : Thread nD τ).loc main_arg6)) := (W5_of_ne m ρ c main_arg6 (by decide)).trans (w4_arg6 m ρ c)
theorem w5_arg7 : W5 m ρ c (Proc.devRef .tc main_arg7) = (m ((c.tc : Thread nD τ).loc main_arg7)) := (W5_of_ne m ρ c main_arg7 (by decide)).trans (w4_arg7 m ρ c)
theorem w5_arg8 : W5 m ρ c (Proc.devRef .tc main_arg8) = (m ((c.tc : Thread nD τ).loc main_arg8)) := (W5_of_ne m ρ c main_arg8 (by decide)).trans (w4_arg8 m ρ c)
theorem w5_arg9 : W5 m ρ c (Proc.devRef .tc main_arg9) = (m ((c.tc : Thread nD τ).loc main_arg9)) := (W5_of_ne m ρ c main_arg9 (by decide)).trans (w4_arg9 m ρ c)
theorem w5_arg10 : W5 m ρ c (Proc.devRef .tc main_arg10) = (m ((c.tc : Thread nD τ).loc main_arg10)) := (W5_of_ne m ρ c main_arg10 (by decide)).trans (w4_arg10 m ρ c)
theorem w5_arg11 : W5 m ρ c (Proc.devRef .tc main_arg11) = (m ((c.tc : Thread nD τ).loc main_arg11)) := (W5_of_ne m ρ c main_arg11 (by decide)).trans (w4_arg11 m ρ c)

end Cert.Gnn.Chain

end
-- ==== Proof.Sage1.lean ====
/-
  Region 1 (the second graph layer's dense kernel): what its output array holds after the run.
-/
import proofs.«140829_j47588237639689_1_alg».proof.Proof.Gen.KernelIdeal.Frame
import proofs.«140829_j47588237639689_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.Gnn.Sage1

open Idealize.ShloMosaic Idealize.ShloMosaic.TcCoe Idealize.SL.Sem Cert.KernelIdeal Cert.KernelIdeal.Gen Cert.Gnn
open Idealize.ShloMosaic.Pipeline (Dat)

variable (V : (c : Dev nD) → (b : Ref sig .tc) → Buf (Elt Ideal) ((c : Thread nD τ).loc b))

/-! ## The two matrix products' contraction, re-indexed to the shared axis

The record contracts axis 1 of the left operand with axis 0 of the right one; at output index (p, q) and contraction
index k the operands are read at (p, k) and (k, q). -/

theorem lhs_dot_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_dot_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_dot_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_dot_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A matrix product into the zero accumulator, read at (p, q): Σ_k a[p, k] · w[k, q]. -/
theorem matmul_at (a : FVec Ideal S4096x128 .bf16) (w : FVec Ideal S128x128 .bf16) (p : Fin 4096) (q : Fin 128) :
    FloatOps.matmul dot_S4096x128_S128x128_S4096x128_1_0_0_1_n_n none a w (constant (F := Ideal) S4096x128 .f32 0x00000000#32) (ValueIdx.ix2 p q)
      = ∑ k : Fin 128, a (ValueIdx.ix2 p k) * w (ValueIdx.ix2 k q) := by
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ValueIdx.ix2 p q) ((ValueIdx.contrEquiv1 dot_S4096x128_S128x128_S4096x128_1_0_0_1_n_n 128 rfl rfl).symm k) = ValueIdx.ix2 p k := funext fun a => Fin.ext (by
    match a with
    | ⟨0, _⟩ => exact lhs_dot_0 _ _
    | ⟨1, _⟩ => exact (lhs_dot_1 _ _).trans hk)
  have er : dot_S4096x128_S128x128_S4096x128_1_0_0_1_n_n.rhsIdx (ValueIdx.ix2 p q) ((ValueIdx.contrEquiv1 dot_S4096x128_S128x128_S4096x128_1_0_0_1_n_n 128 rfl rfl).symm k) = ValueIdx.ix2 k q := funext fun a => Fin.ext (by
    match a with
    | ⟨0, _⟩ => exact (rhs_dot_0 _ _).trans hk
    | ⟨1, _⟩ => exact rhs_dot_1 _ _)
  rw [el, er]

theorem pay (x0 x1 : Vec Ideal S4096x128 .f32) (x2 x4 : Vec Ideal S128x128 .f32) (x3 : Vec Ideal S128 .f32) (p : Fin 4096) (q : Fin 128) :
    k1_pay1 (F := Ideal) x0 x1 x2 x4 x3 (ValueIdx.ix2 p q)
      = sageK (fun k => x0 (ValueIdx.ix2 p k)) (fun k => x1 (ValueIdx.ix2 p k)) x2 x4 x3 q := by
  unfold k1_pay1 sageK
  simp only [shapeCast_self]
  refine (ValueIdx.maximumf_apply _ _ _).trans ?_
  refine congrArg₂ max ?_ rfl
  refine (ValueIdx.addf_apply _ _ _).trans ?_
  refine congrArg₂ (· + ·) ?_ ?_
  · refine (ValueIdx.addf_apply _ _ _).trans ?_
    exact congrArg₂ (· + ·) (matmul_at _ _ p q) (matmul_at _ _ p q)
  · exact (ValueIdx.broadcastTo_1b_ab_apply _ _ p q).trans (ValueIdx.shapeCast_a_1a_apply x3 _ 0 q)

/-! ## From the blocks to the array -/

/-- The zero offsets of a whole-buffer access, rank 2 and rank 1. -/
theorem offsets2_zero : (![0, 0] : Fin 2 → Nat) = fun _ => 0 := funext fun a => by fin_cases a <;> rfl
theorem offsets1_zero : (![0] : Fin 1 → Nat) = fun _ => 0 := funext fun a => by fin_cases a <;> rfl

/-- The printed index maps over the 25 points: the two row-blocked operands and the output sit at block (t, 0), the
    weights and the bias at block 0. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The payload at an index of the block, from what its operands are rows of: the node's row of the two row-blocked
    arrays, the weights and the bias whole. -/
theorem block_value (x0 x1 : Vec Ideal S4096x128 .f32) (x2 x4 : Vec Ideal S128x128 .f32) (x3 : Vec Ideal S128 .f32)
    (A H : FVec Ideal S102400x128 .f32) (Wl : FVec Ideal S128x128 .f32) (bl : FVec Ideal S128 .f32) (Wr : FVec Ideal S128x128 .f32)
    (j : S4096x128.Idx) (i : S102400x128.Idx)
    (h0 : ∀ k : Fin 128, x0 (ValueIdx.ix2 (⟨(j 0).val, (j 0).isLt⟩ : Fin 4096) k) = A (ValueIdx.ix2 (⟨(i 0).val, (i 0).isLt⟩ : Fin 102400) k))
    (h1 : ∀ k : Fin 128, x1 (ValueIdx.ix2 (⟨(j 0).val, (j 0).isLt⟩ : Fin 4096) k) = H (ValueIdx.ix2 (⟨(i 0).val, (i 0).isLt⟩ : Fin 102400) k))
    (h2 : x2 = Wl) (h3 : x3 = bl) (h4 : x4 = Wr) (hq : (j 1).val = (i 1).val) :
    k1_pay1 (F := Ideal) x0 x1 x2 x4 x3 j = sageArr A H Wl bl Wr i := by
  subst h2 h3 h4
  have hj : j = ValueIdx.ix2 (⟨(j 0).val, (j 0).isLt⟩ : Fin 4096) (⟨(j 1).val, (j 1).isLt⟩ : Fin 128) := ValueIdx.eq_ix2 j
  have e : (⟨(j 1).val, (j 1).isLt⟩ : Fin 128) = ⟨(i 1).val, (i 1).isLt⟩ := Fin.ext hq
  rw [hj, pay, e, funext h0, funext h1]
  rfl

/-- What point t writes back is block t of the layer's array: rows 4096 t … 4096 t + 4095, every column. -/
theorem written_block (c : Dev nD) (t : Fin cfg1.N) :
    (dat1 (F := Ideal) V c).flushed 5 t = ((cfg1.win 5).blk t).view.read (Elt Ideal)
      (sageArr (V c main_v41) (V c main_v42) (V c main_arg5) (V c main_arg6) (V c main_arg7)) := by
  show (cfg1.win 5).cut (grid1.coords t) ((dat1 V c).after 5 t) = _
  rw [after1_5]
  unfold out1_5
  rw [View.canon_unit_zero offsets2_zero]
  simp only [View.ld_unit_zero (S := S4096x128) offsets2_zero, View.ld_unit_zero (S := S128x128) offsets2_zero, View.ld_unit_zero (S := S128) offsets1_zero]
  funext j
  obtain ⟨e00, e01, e10, e11, e20, e21, e30, e40, e41, e50, e51⟩ := block_indices t
  show k1_pay1 (F := Ideal) (iblk1 V c 0 t) (iblk1 V c 1 t) (iblk1 V c 2 t) (iblk1 V c 4 t) (iblk1 V c 3 t) ((cfg1.win 5).xinj (grid1.coords t) j)
    = sageArr (V c main_v41) (V c main_v42) (V c main_arg5) (V c main_arg6) (V c main_arg7) (((cfg1.win 5).blk t).view.emb j)
  refine block_value _ _ _ _ _ _ _ _ _ _ _ _ (fun k => ?_) (fun k => ?_) (funext fun y => ?_) (funext fun y => ?_) (funext fun y => ?_) ?_
  · show V c main_v41 (((cfg1.win 0).blk t).view.emb _) = _
    refine congrArg (V c main_v41) (funext fun a => Fin.ext ?_)
    match a with
    | ⟨0, _⟩ =>
      show win1_0.index t (0 : Fin 2) * 4096 + 1 * (j 0).val = win1_5.index t (0 : Fin 2) * 4096 + 1 * (j 0).val
      omega
    | ⟨1, _⟩ =>
      show win1_0.index t (1 : Fin 2) * 128 + 1 * k.val = k.val
      omega
  · show V c main_v42 (((cfg1.win 1).blk t).view.emb _) = _
    refine congrArg (V c main_v42) (funext fun a => Fin.ext ?_)
    match a with
    | ⟨0, _⟩ =>
      show win1_1.index t (0 : Fin 2) * 4096 + 1 * (j 0).val = win1_5.index t (0 : Fin 2) * 4096 + 1 * (j 0).val
      omega
    | ⟨1, _⟩ =>
      show win1_1.index t (1 : Fin 2) * 128 + 1 * k.val = k.val
      omega
  · show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · show V c main_arg6 (((cfg1.win 3).blk t).view.emb y) = V c main_arg6 y
    refine congrArg (V c main_arg6) (funext fun a => Fin.ext ?_)
    match a with
    | ⟨0, _⟩ => show win1_3.index t (0 : Fin 1) * 128 + 1 * (y 0).val = (y 0).val; omega
  · show V c main_arg7 (((cfg1.win 4).blk t).view.emb y) = V c main_arg7 y
    refine congrArg (V c main_arg7) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · show (j 1).val = win1_5.index t (1 : Fin 2) * 128 + 1 * (j 1).val
    omega

/-- An index of the array is in point t's block iff each coordinate is in the block's range on its axis. -/
theorem mem_row_block (t : Fin cfg1.N) (i : S102400x128.Idx) :
    i ∈ ((cfg1.win 5).blk t).view.set ↔ ∀ a : Fin 2, win1_5.index t a * S4096x128.size a ≤ (i a).val ∧ (i a).val < win1_5.index t a * S4096x128.size a + S4096x128.size a := by
  show i ∈ ((View.whole main_v43).slice (win1_5.rect t)).set ↔ _
  rw [View.set_slice_whole, Rect.mem_set_unit]
  exact Iff.rfl

/-- Every row lies in the block of the point (row / 4096): 25 · 4096 = 102400 rows. -/
theorem rows_covered (i : S102400x128.Idx) :
    ∃ t : Fin cfg1.N, (cfg1.win 5).flush t = true ∧ i ∈ ((cfg1.win 5).blk t).view.set := by
  have hi0 : (i 0).val < 102400 := (i 0).isLt
  have hi1 : (i 1).val < 128 := (i 1).isLt
  have hN : grid1.N = 25 := N_1
  have ht : (i 0).val / 4096 < cfg1.N := by show (i 0).val / 4096 < grid1.N; omega
  obtain ⟨-, -, -, -, -, -, -, -, -, e50, e51⟩ := block_indices ⟨(i 0).val / 4096, ht⟩
  refine ⟨⟨(i 0).val / 4096, ht⟩, flush1_5 _, ?_⟩
  rw [mem_row_block]
  intro a
  match a with
  | ⟨0, _⟩ =>
    show win1_5.index ⟨(i 0).val / 4096, ht⟩ (0 : Fin 2) * 4096 ≤ (i 0).val ∧ (i 0).val < win1_5.index ⟨(i 0).val / 4096, ht⟩ (0 : Fin 2) * 4096 + 4096
    rw [e50]
    show (i 0).val / 4096 * 4096 ≤ (i 0).val ∧ (i 0).val < (i 0).val / 4096 * 4096 + 4096
    omega
  | ⟨1, _⟩ =>
    show win1_5.index ⟨(i 0).val / 4096, ht⟩ (1 : Fin 2) * 128 ≤ (i 1).val ∧ (i 1).val < win1_5.index ⟨(i 0).val / 4096, ht⟩ (1 : Fin 2) * 128 + 128
    omega

theorem final (c : Dev nD) :
    (dat1 (F := Ideal) V c).arrAt 5 cfg1.N
      = sageArr (V c main_v41) (V c main_v42) (V c main_arg5) (V c main_arg6) (V c main_arg7) :=
  (dat1 (F := Ideal) V c).arrAt_eq_of_cover 5 _ (fun t _ => written_block V c t) rows_covered

end Cert.Gnn.Sage1

end
-- ==== Proof.HostChain1.lean ====
/-
  From the first kernel's exit to the second kernel's exit.

  The host cuts the first kernel's output back to the node rows (the first layer), aggregates it over the same
  edges with the same inverse degrees, and pads both for the second kernel.
-/
import proofs.«140829_j47588237639689_1_alg».proof.Proof.HostChain0
import proofs.«140829_j47588237639689_1_alg».proof.Proof.Sage1

set_option maxRecDepth 16384
-- one declaration at a time: each read-back is a pass over some forty host operations
set_option Elab.async false

noncomputable section

namespace Cert.Gnn.Chain

open Idealize.ShloMosaic Idealize.ShloMosaic.TcCoe Idealize.SL.Sem Idealize.ShloMosaic.StableHlo
open Cert.KernelIdeal Cert.KernelIdeal.Gen Cert.Gnn Cert.Gnn.Bridge

variable (m : (ℓ : Loc nD τ sig) → Buf (Elt Ideal) ℓ) (ρ : Dev nD → PrngReg) (c : Dev nD)

/-- A buffer at the second kernel's entry, read back to the first kernel's exit. -/
local macro "back1" : tactic => `(tactic| (
  show StableHlo.after hostOps1_3 (StableHlo.after hostOps1_2 (StableHlo.after hostOps1_1 (StableHlo.after hostOps1 (W5 _ _ _)))) _ = _
  dsimp only [hostOps1_3, hostOps1_2, hostOps1_1, hostOps1]
  after_results_simp))
/-- A buffer after the host stretch that follows the first kernel, read back to that kernel's exit. -/
local macro "backB" : tactic => `(tactic| (
  show StableHlo.after hostOps1 (W5 _ _ _) _ = _
  dsimp only [hostOps1]
  after_results_simp))

set_option maxHeartbeats 4000000 in
/-- The first layer: the first kernel's output cut back to the node rows. -/
theorem w6_v28 : W6 m ρ c (Proc.devRef .tc main_v28) = cutK (F := Ideal) (W5 m ρ c (Proc.devRef .tc main_v27)) := by
  backB
  generalize W5 m ρ c (Proc.devRef .tc main_v27) = y
  rfl
set_option maxHeartbeats 4000000 in
/-- Its mean aggregation, over the same edge rows and inverse degrees. -/
theorem w6_v40 : W6 m ρ c (Proc.devRef .tc main_v40) = meanAgg (F := Ideal) (m ((c.tc : Thread nD τ).loc main_arg1)) (cutK (F := Ideal) (W5 m ρ c (Proc.devRef .tc main_v27))) := by
  backB
  rw [w5_v1, w5_v3, w5_v12]
  generalize W5 m ρ c (Proc.devRef .tc main_v27) = y
  rfl
set_option maxHeartbeats 4000000 in
theorem w6_c10 : W6 m ρ c (Proc.devRef .tc main_c_10) = constantI S_ 32 0#32 := by backB <;> rfl
/-- The two padding calls in front of the second kernel, from ANY contents: the operands stay variables. -/
theorem pads1_v41 (V : Valuation τ sig (Elt Ideal)) :
    StableHlo.after hostOps1_3 (StableHlo.after hostOps1_2 (StableHlo.after hostOps1_1 V)) (Proc.devRef .tc main_v41)
      = padK (F := Ideal) (V (Proc.devRef .tc main_v40)) (sitofp (F := Ideal) .f32 (V (Proc.devRef .tc main_c_10))) := by
  dsimp only [hostOps1_3, hostOps1_2, hostOps1_1]
  after_results_simp <;> rfl
theorem pads1_v42 (V : Valuation τ sig (Elt Ideal)) :
    StableHlo.after hostOps1_3 (StableHlo.after hostOps1_2 (StableHlo.after hostOps1_1 V)) (Proc.devRef .tc main_v42)
      = padK (F := Ideal) (V (Proc.devRef .tc main_v28)) zpad := by
  dsimp only [hostOps1_3, hostOps1_2, hostOps1_1]
  after_results_simp <;> rfl
/-- The second kernel's first operand: the padded mean aggregation of the first layer. -/
theorem w9_v41 : W9 m ρ c (Proc.devRef .tc main_v41)
    = padK (F := Ideal) (meanAgg (F := Ideal) (m ((c.tc : Thread nD τ).loc main_arg1)) (cutK (F := Ideal) (W5 m ρ c (Proc.devRef .tc main_v27)))) zpad := by
  refine (pads1_v41 (W6 m ρ c)).trans ?_
  rw [w6_v40, w6_c10] <;> rfl
/-- Its second operand: the padded first layer. -/
theorem w9_v42 : W9 m ρ c (Proc.devRef .tc main_v42) = padK (F := Ideal) (cutK (F := Ideal) (W5 m ρ c (Proc.devRef .tc main_v27))) zpad := by
  refine (pads1_v42 (W6 m ρ c)).trans ?_
  rw [w6_v28]
set_option maxHeartbeats 4000000 in
theorem w9_arg5 : W9 m ρ c (Proc.devRef .tc main_arg5) = (m ((c.tc : Thread nD τ).loc main_arg5)) := by back1; exact w5_arg5 m ρ c
set_option maxHeartbeats 4000000 in
theorem w9_arg6 : W9 m ρ c (Proc.devRef .tc main_arg6) = (m ((c.tc : Thread nD τ).loc main_arg6)) := by back1; exact w5_arg6 m ρ c
set_option maxHeartbeats 4000000 in
theorem w9_arg7 : W9 m ρ c (Proc.devRef .tc main_arg7) = (m ((c.tc : Thread nD τ).loc main_arg7)) := by back1; exact w5_arg7 m ρ c
set_option maxHeartbeats 4000000 in
theorem w9_arg8 : W9 m ρ c (Proc.devRef .tc main_arg8) = (m ((c.tc : Thread nD τ).loc main_arg8)) := by back1; exact w5_arg8 m ρ c
set_option maxHeartbeats 4000000 in
theorem w9_arg9 : W9 m ρ c (Proc.devRef .tc main_arg9) = (m ((c.tc : Thread nD τ).loc main_arg9)) := by back1; exact w5_arg9 m ρ c
set_option maxHeartbeats 4000000 in
theorem w9_arg10 : W9 m ρ c (Proc.devRef .tc main_arg10) = (m ((c.tc : Thread nD τ).loc main_arg10)) := by back1; exact w5_arg10 m ρ c
set_option maxHeartbeats 4000000 in
theorem w9_arg11 : W9 m ρ c (Proc.devRef .tc main_arg11) = (m ((c.tc : Thread nD τ).loc main_arg11)) := by back1; exact w5_arg11 m ρ c

/-! ## The second kernel, and the stretch after it -/

/-- The second kernel's output array. -/
theorem w10_v43 : W10 m ρ c (Proc.devRef .tc main_v43)
    = sageArr (padK (F := Ideal) (meanAgg (F := Ideal) (m ((c.tc : Thread nD τ).loc main_arg1)) (cutK (F := Ideal) (W5 m ρ c (Proc.devRef .tc main_v27)))) zpad)
        (padK (F := Ideal) (cutK (F := Ideal) (W5 m ρ c (Proc.devRef .tc main_v27))) zpad) (m ((c.tc : Thread nD τ).loc main_arg5)) (m ((c.tc : Thread nD τ).loc main_arg6)) (m ((c.tc : Thread nD τ).loc main_arg7)) := by
  refine (W10_arr m ρ c 5).trans ((Sage1.final (V9 m ρ) c).trans ?_)
  show sageArr (W9 m ρ c (Proc.devRef .tc main_v41)) (W9 m ρ c (Proc.devRef .tc main_v42)) (W9 m ρ c (Proc.devRef .tc main_arg5)) (W9 m ρ c (Proc.devRef .tc main_arg6)) (W9 m ρ c (Proc.devRef .tc main_arg7)) = _
  rw [w9_v41, w9_v42, w9_arg5, w9_arg6, w9_arg7]

theorem w10_arg8 : W10 m ρ c (Proc.devRef .tc main_arg8) = (m ((c.tc : Thread nD τ).loc main_arg8)) := (W10_of_ne m ρ c main_arg8 (by decide)).trans (w9_arg8 m ρ c)
theorem w10_arg9 : W10 m ρ c (Proc.devRef .tc main_arg9) = (m ((c.tc : Thread nD τ).loc main_arg9)) := (W10_of_ne m ρ c main_arg9 (by decide)).trans (w9_arg9 m ρ c)
theorem w10_arg10 : W10 m ρ c (Proc.devRef .tc main_arg10) = (m ((c.tc : Thread nD τ).loc main_arg10)) := (W10_of_ne m ρ c main_arg10 (by decide)).trans (w9_arg10 m ρ c)
theorem w10_arg11 : W10 m ρ c (Proc.devRef .tc main_arg11) = (m ((c.tc : Thread nD τ).loc main_arg11)) := (W10_of_ne m ρ c main_arg11 (by decide)).trans (w9_arg11 m ρ c)

end Cert.Gnn.Chain

end
-- ==== Proof.Head.lean ====
/-
  Region 2 (the two-layer head's kernel): what its output array holds after the run.
-/
import proofs.«140829_j47588237639689_1_alg».proof.Proof.Gen.KernelIdeal.Frame
import proofs.«140829_j47588237639689_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.Gnn.Head

open Idealize.ShloMosaic Idealize.ShloMosaic.TcCoe Idealize.SL.Sem Cert.KernelIdeal Cert.KernelIdeal.Gen Cert.Gnn
open Idealize.ShloMosaic.Pipeline (Dat)

variable (V : (c : Dev nD) → (b : Ref sig .tc) → Buf (Elt Ideal) ((c : Thread nD τ).loc b))

/-! ## The two matrix products at an index

Into a zero accumulator a product read at (p, j) is the sum over the contracted axis of the operands' products;
the contraction index has one axis, so the sum is re-indexed to that axis's coordinate. -/

theorem lhsA_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhsA_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhsA_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhsA_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The first product, [4096,128] × [128,64], at (p, j): Σ_k l[p,k] · r[k,j]. -/
theorem mmA (l : FVec Ideal S4096x128 .bf16) (r : FVec Ideal S128x64 .bf16) (p : Fin 4096) (j : Fin 64) :
    matmul dot_S4096x128_S128x64_S4096x64_1_0_0_1_n_n none l r (constant S4096x64 .f32 0x00000000#32) (ValueIdx.ix2 p j)
      = ∑ k : Fin 128, l (ValueIdx.ix2 p k) * r (ValueIdx.ix2 k j) := by
  refine (Ideal.matmul_constant_zero_apply dot_S4096x128_S128x64_S4096x64_1_0_0_1_n_n none l r (ValueIdx.ix2 p j)).trans ?_
  rw [← Equiv.sum_comp (ValueIdx.contrEquiv1 dot_S4096x128_S128x64_S4096x64_1_0_0_1_n_n 128 rfl rfl).symm]
  refine Finset.sum_congr rfl fun k _ => ?_
  have hk := ValueIdx.contrEquiv1_symm_val dot_S4096x128_S128x64_S4096x64_1_0_0_1_n_n 128 rfl rfl k
  have el : dot_S4096x128_S128x64_S4096x64_1_0_0_1_n_n.lhsIdx (ValueIdx.ix2 p j) ((ValueIdx.contrEquiv1 dot_S4096x128_S128x64_S4096x64_1_0_0_1_n_n 128 rfl rfl).symm k) = ValueIdx.ix2 p k := funext fun a => Fin.ext (by
    match a with
    | ⟨0, _⟩ => exact lhsA_0 _ _
    | ⟨1, _⟩ => exact (lhsA_1 _ _).trans hk)
  have er : dot_S4096x128_S128x64_S4096x64_1_0_0_1_n_n.rhsIdx (ValueIdx.ix2 p j) ((ValueIdx.contrEquiv1 dot_S4096x128_S128x64_S4096x64_1_0_0_1_n_n 128 rfl rfl).symm k) = ValueIdx.ix2 k j := funext fun a => Fin.ext (by
    match a with
    | ⟨0, _⟩ => exact (rhsA_0 _ _).trans hk
    | ⟨1, _⟩ => exact rhsA_1 _ _)
  rw [el, er]

theorem lhsB_0 (i : S4096x8.Idx) (q : dot_S4096x64_S64x8_S4096x8_1_0_0_1_n_n.contr.Idx) :
    (dot_S4096x64_S64x8_S4096x8_1_0_0_1_n_n.lhsIdx i q 0).val = (i 0).val := by
  unfold DotDims.lhsIdx
  rw [dif_neg (show ¬(0 : Fin S4096x64.rank) ∈ dot_S4096x64_S64x8_S4096x8_1_0_0_1_n_n.lhsBatch by decide), dif_pos (show (0 : Fin S4096x64.rank) ∈ dot_S4096x64_S64x8_S4096x8_1_0_0_1_n_n.lhsNonContracting by decide)]
  rfl
theorem lhsB_1 (i : S4096x8.Idx) (q : dot_S4096x64_S64x8_S4096x8_1_0_0_1_n_n.contr.Idx) :
    (dot_S4096x64_S64x8_S4096x8_1_0_0_1_n_n.lhsIdx i q 1).val = (q ⟨0, by decide⟩).val :=
  dot_S4096x64_S64x8_S4096x8_1_0_0_1_n_n.lhsIdx_val_of_single rfl i q
theorem rhsB_0 (i : S4096x8.Idx) (q : dot_S4096x64_S64x8_S4096x8_1_0_0_1_n_n.contr.Idx) :
    (dot_S4096x64_S64x8_S4096x8_1_0_0_1_n_n.rhsIdx i q 0).val = (q ⟨0, by decide⟩).val :=
  dot_S4096x64_S64x8_S4096x8_1_0_0_1_n_n.rhsIdx_val_of_single rfl i q
theorem rhsB_1 (i : S4096x8.Idx) (q : dot_S4096x64_S64x8_S4096x8_1_0_0_1_n_n.contr.Idx) :
    (dot_S4096x64_S64x8_S4096x8_1_0_0_1_n_n.rhsIdx i q 1).val = (i 1).val := by
  unfold DotDims.rhsIdx
  rw [dif_neg (show ¬(1 : Fin S64x8.rank) ∈ dot_S4096x64_S64x8_S4096x8_1_0_0_1_n_n.rhsBatch by decide), dif_pos (show (1 : Fin S64x8.rank) ∈ dot_S4096x64_S64x8_S4096x8_1_0_0_1_n_n.rhsNonContracting by decide)]
  rfl

/-- The second product, [4096,64] × [64,8], at (p, q): Σ_j l[p,j] · r[j,q]. -/
theorem mmB (l : FVec Ideal S4096x64 .bf16) (r : FVec Ideal S64x8 .bf16) (p : Fin 4096) (q : Fin 8) :
    matmul dot_S4096x64_S64x8_S4096x8_1_0_0_1_n_n none l r (constant S4096x8 .f32 0x00000000#32) (ValueIdx.ix2 p q)
      = ∑ j : Fin 64, l (ValueIdx.ix2 p j) * r (ValueIdx.ix2 j q) := by
  refine (Ideal.matmul_constant_zero_apply dot_S4096x64_S64x8_S4096x8_1_0_0_1_n_n none l r (ValueIdx.ix2 p q)).trans ?_
  rw [← Equiv.sum_comp (ValueIdx.contrEquiv1 dot_S4096x64_S64x8_S4096x8_1_0_0_1_n_n 64 rfl rfl).symm]
  refine Finset.sum_congr rfl fun k _ => ?_
  have hk := ValueIdx.contrEquiv1_symm_val dot_S4096x64_S64x8_S4096x8_1_0_0_1_n_n 64 rfl rfl k
  have el : dot_S4096x64_S64x8_S4096x8_1_0_0_1_n_n.lhsIdx (ValueIdx.ix2 p q) ((ValueIdx.contrEquiv1 dot_S4096x64_S64x8_S4096x8_1_0_0_1_n_n 64 rfl rfl).symm k) = ValueIdx.ix2 p k := funext fun a => Fin.ext (by
    match a with
    | ⟨0, _⟩ => exact lhsB_0 _ _
    | ⟨1, _⟩ => exact (lhsB_1 _ _).trans hk)
  have er : dot_S4096x64_S64x8_S4096x8_1_0_0_1_n_n.rhsIdx (ValueIdx.ix2 p q) ((ValueIdx.contrEquiv1 dot_S4096x64_S64x8_S4096x8_1_0_0_1_n_n 64 rfl rfl).symm k) = ValueIdx.ix2 k q := funext fun a => Fin.ext (by
    match a with
    | ⟨0, _⟩ => exact (rhsB_0 _ _).trans hk
    | ⟨1, _⟩ => exact rhsB_1 _ _)
  rw [el, er]

/-- A bias [n] laid as one row [1, n] and repeated over the rows, at (p, j): the bias at j. -/
theorem biasA (b : FVec Ideal S64 .f32) (p : Fin 4096) (j : Fin 64) :
    broadcastTo S4096x64 (shapeCast S1x64 b shapeCasts_S64_S1x64) broadcasts_S1x64_S4096x64 (ValueIdx.ix2 p j) = b (ValueIdx.ix1 j) :=
  (ValueIdx.broadcastTo_1b_ab_apply _ broadcasts_S1x64_S4096x64 p j).trans (ValueIdx.shapeCast_a_1a_apply b shapeCasts_S64_S1x64 0 j)

theorem biasB (b : FVec Ideal S8 .f32) (p : Fin 4096) (q : Fin 8) :
    broadcastTo S4096x8 (shapeCast S1x8 b shapeCasts_S8_S1x8) broadcasts_S1x8_S4096x8 (ValueIdx.ix2 p q) = b (ValueIdx.ix1 q) :=
  (ValueIdx.broadcastTo_1b_ab_apply _ broadcasts_S1x8_S4096x8 p q).trans (ValueIdx.shapeCast_a_1a_apply b shapeCasts_S8_S1x8 0 q)

theorem pay (x0 : Vec Ideal S4096x128 .f32) (x1 : Vec Ideal S128x64 .f32) (x2 : Vec Ideal S64 .f32) (x3 : Vec Ideal S64x8 .f32)
    (x4 : Vec Ideal S8 .f32) (p : Fin 4096) (q : Fin 8) :
    k2_pay1 (F := Ideal) x0 x1 x2 x3 x4 (ValueIdx.ix2 p q)
      = headRow (fun k => x0 (ValueIdx.ix2 p k)) x1 x2 x3 x4 q := by
  unfold k2_pay1 headRow
  refine (ValueIdx.maximumf_apply _ _ _).trans (congrArg₂ max ?_ rfl)
  refine (ValueIdx.addf_apply _ _ _).trans (congrArg₂ (· + ·) ?_ (biasB x4 p q))
  refine (mmB _ _ p q).trans (Finset.sum_congr rfl fun j _ => congrArg₂ (· * ·) ?_ rfl)
  refine (ValueIdx.maximumf_apply _ _ _).trans (congrArg₂ max ?_ rfl)
  refine (ValueIdx.addf_apply _ _ _).trans (congrArg₂ (· + ·) ?_ (biasA x2 p j))
  refine (mmA _ _ p j).trans (Finset.sum_congr rfl fun k _ => congrArg₂ (· * ·) ?_ rfl)
  exact congrFun (shapeCast_self x0 shapeCasts_S4096x128_S4096x128) (ValueIdx.ix2 p k)

/-! ## The output array after the run

Point t of the 25 writes back rows 4096·t … 4096·t + 4095 of the output, computed from the same rows of the
node features and from the whole weight and bias arrays; 25 · 4096 = 102400, so the blocks cover every row. -/

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows (features, output) sit at block (t, 0), the
    weights and biases at block 0. -/
theorem idx_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0 :=
  (by decide +kernel : ∀ t : Fin grid2.N, _)

/-- The payload at a block index, the index split into its two coordinates. -/
theorem pay' (x0 : Vec Ideal S4096x128 .f32) (x1 : Vec Ideal S128x64 .f32) (x2 : Vec Ideal S64 .f32) (x3 : Vec Ideal S64x8 .f32)
    (x4 : Vec Ideal S8 .f32) (j : S4096x8.Idx) :
    k2_pay1 (F := Ideal) x0 x1 x2 x3 x4 j = headRow (fun k => x0 (ValueIdx.ix2 (j 0) k)) x1 x2 x3 x4 (j 1) :=
  (congrArg (k2_pay1 (F := Ideal) x0 x1 x2 x3 x4) (ValueIdx.eq_ix2 j)).trans (pay x0 x1 x2 x3 x4 (j 0) (j 1))

/-- The feature window's block at point t is rows 4096·t … of the feature array. -/
theorem iblk0_apply (c : Dev nD) (t : Fin cfg2.N) (p : Fin 4096) (k : Fin 128) (r : Fin 102400) (hr : r.val = 4096 * t.val + p.val) :
    (iblk2 (F := Ideal) V c 0 t : Vec Ideal S4096x128 .f32) (ValueIdx.ix2 p k)
      = (V c main_v45 : FVec Ideal S102400x128 .f32) (ValueIdx.ix2 r k) := by
  obtain ⟨e0, e1, -⟩ := idx_facts t
  unfold iblk2
  rw [View.read_apply]
  show V c main_v45 _ = V c main_v45 _
  congr 1
  funext a
  apply Fin.ext
  match a with
  | ⟨0, _⟩ => show win2_0.index t (0 : Fin 2) * 4096 + 1 * p.val = r.val; rw [e0, hr]; omega
  | ⟨1, _⟩ => show win2_0.index t (1 : Fin 2) * 128 + 1 * k.val = k.val; rw [e1]; omega

/-- Each weight or bias window's block, at every point, is its whole array. -/
theorem iblk1_eq (c : Dev nD) (t : Fin cfg2.N) : (iblk2 (F := Ideal) V c 1 t : Vec Ideal S128x64 .f32) = V c main_arg8 := by
  obtain ⟨-, -, -, -, e0, e1, -⟩ := idx_facts t
  funext x
  unfold iblk2
  rw [View.read_apply]
  show V c main_arg8 _ = V c main_arg8 x
  congr 1
  funext a
  apply Fin.ext
  match a with
  | ⟨0, _⟩ => show win2_1.index t (0 : Fin 2) * 128 + 1 * (x 0).val = (x 0).val; rw [e0]; omega
  | ⟨1, _⟩ => show win2_1.index t (1 : Fin 2) * 64 + 1 * (x 1).val = (x 1).val; rw [e1]; omega

theorem iblk2_eq (c : Dev nD) (t : Fin cfg2.N) : (iblk2 (F := Ideal) V c 2 t : Vec Ideal S64 .f32) = V c main_arg9 := by
  obtain ⟨-, -, -, -, -, -, e0, -⟩ := idx_facts t
  funext x
  unfold iblk2
  rw [View.read_apply]
  show V c main_arg9 _ = V c main_arg9 x
  congr 1
  funext a
  apply Fin.ext
  match a with
  | ⟨0, _⟩ => show win2_2.index t (0 : Fin 1) * 64 + 1 * (x 0).val = (x 0).val; rw [e0]; omega

theorem iblk3_eq (c : Dev nD) (t : Fin cfg2.N) : (iblk2 (F := Ideal) V c 3 t : Vec Ideal S64x8 .f32) = V c main_arg10 := by
  obtain ⟨-, -, -, -, -, -, -, e0, e1, -⟩ := idx_facts t
  funext x
  unfold iblk2
  rw [View.read_apply]
  show V c main_arg10 _ = V c main_arg10 x
  congr 1
  funext a
  apply Fin.ext
  match a with
  | ⟨0, _⟩ => show win2_3.index t (0 : Fin 2) * 64 + 1 * (x 0).val = (x 0).val; rw [e0]; omega
  | ⟨1, _⟩ => show win2_3.index t (1 : Fin 2) * 8 + 1 * (x 1).val = (x 1).val; rw [e1]; omega

theorem iblk4_eq (c : Dev nD) (t : Fin cfg2.N) : (iblk2 (F := Ideal) V c 4 t : Vec Ideal S8 .f32) = V c main_arg11 := by
  obtain ⟨-, -, -, -, -, -, -, -, -, e0⟩ := idx_facts t
  funext x
  unfold iblk2
  rw [View.read_apply]
  show V c main_arg11 _ = V c main_arg11 x
  congr 1
  funext a
  apply Fin.ext
  match a with
  | ⟨0, _⟩ => show win2_4.index t (0 : Fin 1) * 8 + 1 * (x 0).val = (x 0).val; rw [e0]; omega

/-- The head's row depends on the node's row and the column only through their values. -/
theorem headRow_congr {h h' : Fin 128 → EReal} (W0 : FVec Ideal S128x64 .f32) (b0 : FVec Ideal S64 .f32) (W1 : FVec Ideal S64x8 .f32)
    (b1 : FVec Ideal S8 .f32) {q q' : Fin 8} (hh : ∀ k, h k = h' k) (hq : q = q') :
    headRow h W0 b0 W1 b1 q = headRow h' W0 b0 W1 b1 q' := by
  subst hq
  rw [show h = h' from funext hh]

theorem flushed_eq (c : Dev nD) (t : Fin cfg2.N) :
    (dat2 (F := Ideal) V c).flushed 5 t
      = ((cfg2.win 5).blk t).view.read (Elt Ideal) (headArr (V c main_v45) (V c main_arg8) (V c main_arg9) (V c main_arg10) (V c main_arg11)) := by
  show (cfg2.win 5).cut (grid2.coords t) ((dat2 (F := Ideal) V c).after 5 t) = _
  rw [after2_5]
  unfold out2_5
  rw [View.canon_unit_zero hz]
  simp only [View.ld_unit_zero (S := S4096x128) hz, View.ld_unit_zero (S := S128x64) hz, View.ld_unit_zero (S := S64) hz1,
    View.ld_unit_zero (S := S64x8) hz, View.ld_unit_zero (S := S8) hz1]
  funext j
  refine (pay' (iblk2 (F := Ideal) V c 0 t) (iblk2 (F := Ideal) V c 1 t) (iblk2 (F := Ideal) V c 2 t) (iblk2 (F := Ideal) V c 3 t) (iblk2 (F := Ideal) V c 4 t) j).trans ?_
  rw [iblk1_eq, iblk2_eq, iblk3_eq, iblk4_eq]
  obtain ⟨-, -, e2, e3, -⟩ := idx_facts t
  show headRow (fun k => (iblk2 (F := Ideal) V c 0 t : Vec Ideal S4096x128 .f32) (ValueIdx.ix2 (j 0) k)) (V c main_arg8) (V c main_arg9) (V c main_arg10) (V c main_arg11) (j 1)
    = headArr (V c main_v45) (V c main_arg8) (V c main_arg9) (V c main_arg10) (V c main_arg11) (((cfg2.win 5).blk t).view.emb j)
  unfold headArr
  refine headRow_congr _ _ _ _ (fun k => iblk0_apply V c t (j 0) k _ ?_) (Fin.ext ?_)
  · show win2_5.index t (0 : Fin 2) * 4096 + 1 * (j 0).val = 4096 * t.val + (j 0).val
    rw [e2]; omega
  · show (j 1).val = win2_5.index t (1 : Fin 2) * 8 + 1 * (j 1).val
    rw [e3]; omega

/-- An index of the output array is in point t's block iff each coordinate is in the block's range on its axis. -/
theorem mem_blk (t : Fin cfg2.N) (i : S102400x8.Idx) :
    i ∈ ((cfg2.win 5).blk t).view.set ↔ ∀ a : Fin 2, win2_5.index t a * S4096x8.size a ≤ (i a).val ∧ (i a).val < win2_5.index t a * S4096x8.size a + S4096x8.size a := by
  show i ∈ ((View.whole main_v46).slice (win2_5.rect t)).set ↔ _
  rw [View.set_slice_whole, Rect.mem_set_unit]
  exact Iff.rfl

/-- Row r lies in the block of point r / 4096. -/
theorem cover (i : S102400x8.Idx) : ∃ t : Fin cfg2.N, (cfg2.win 5).flush t = true ∧ i ∈ ((cfg2.win 5).blk t).view.set := by
  have hi0 : (i 0).val < 102400 := (i 0).isLt
  have hi1 : (i 1).val < 8 := (i 1).isLt
  have hN : cfg2.N = 25 := rfl
  have ht : (i 0).val / 4096 < cfg2.N := by rw [hN]; omega
  obtain ⟨-, -, e2, e3, -⟩ := idx_facts ⟨(i 0).val / 4096, ht⟩
  have e2' : win2_5.index ⟨(i 0).val / 4096, ht⟩ (0 : Fin 2) = (i 0).val / 4096 := e2
  refine ⟨⟨(i 0).val / 4096, ht⟩, flush2_5 _, ?_⟩
  rw [mem_blk]
  intro a
  match a with
  | ⟨0, _⟩ =>
    show win2_5.index ⟨(i 0).val / 4096, ht⟩ (0 : Fin 2) * 4096 ≤ (i 0).val ∧ (i 0).val < win2_5.index ⟨(i 0).val / 4096, ht⟩ (0 : Fin 2) * 4096 + 4096
    rw [e2']; omega
  | ⟨1, _⟩ =>
    show win2_5.index ⟨(i 0).val / 4096, ht⟩ (1 : Fin 2) * 8 ≤ (i 1).val ∧ (i 1).val < win2_5.index ⟨(i 0).val / 4096, ht⟩ (1 : Fin 2) * 8 + 8
    rw [e3]; omega

theorem final (c : Dev nD) :
    (dat2 (F := Ideal) V c).arrAt 5 cfg2.N
      = headArr (V c main_v45) (V c main_arg8) (V c main_arg9) (V c main_arg10) (V c main_arg11) :=
  (dat2 (F := Ideal) V c).arrAt_eq_of_cover 5 (headArr (V c main_v45) (V c main_arg8) (V c main_arg9) (V c main_arg10) (V c main_arg11))
    (fun t _ => flushed_eq V c t) cover

end Cert.Gnn.Head

end
-- ==== Proof.HostChain2.lean ====
/-
  The kernel program's result buffer, read back through its run.

  The run alternates stretches of host operations with the three kernels.  Reading the result buffer backwards:
  it is the first 100000 rows of the head kernel's output; that kernel ran on the padded second layer; the second
  layer is the first 100000 rows of the second layer kernel's output, which ran on the padded mean aggregation of the
  first layer and on the padded first layer; and likewise once more down to the arguments.  The edge rows and the
  inverse degrees are computed once, before the first kernel, and no kernel and no later host operation writes
  them, so every later stretch finds them as the first one left them; the same holds of the weight arrays.
  Cutting a padded layer back to the node rows gives the reference's layer (the padding value is never read), so
  the result is the network `gnn` of the arguments.
-/
import proofs.«140829_j47588237639689_1_alg».proof.Proof.HostChain1
import proofs.«140829_j47588237639689_1_alg».proof.Proof.Head

set_option maxRecDepth 16384
-- one declaration at a time: each read-back is a pass over some forty host operations
set_option Elab.async false

noncomputable section

namespace Cert.Gnn.Chain

open Idealize.ShloMosaic Idealize.ShloMosaic.TcCoe Idealize.SL.Sem Idealize.ShloMosaic.StableHlo
open Cert.KernelIdeal Cert.KernelIdeal.Gen Cert.Gnn Cert.Gnn.Bridge

variable (m : (ℓ : Loc nD τ sig) → Buf (Elt Ideal) ℓ) (ρ : Dev nD → PrngReg) (c : Dev nD)

/-- A buffer at the head kernel's entry, read back to the second kernel's exit. -/
local macro "back2" : tactic => `(tactic| (
  show StableHlo.after hostOps2_1 (StableHlo.after hostOps2 (W10 _ _ _)) _ = _
  dsimp only [hostOps2_1, hostOps2]
  after_results_simp))

/-- The head kernel's first operand: the padded second layer. -/
theorem w12_v45 : W12 m ρ c (Proc.devRef .tc main_v45) = padK (F := Ideal) (cutK (F := Ideal) (W10 m ρ c (Proc.devRef .tc main_v43))) zpad := by
  back2
  generalize W10 m ρ c (Proc.devRef .tc main_v43) = y
  rfl
theorem w12_arg8 : W12 m ρ c (Proc.devRef .tc main_arg8) = (m ((c.tc : Thread nD τ).loc main_arg8)) := by back2; exact w10_arg8 m ρ c
theorem w12_arg9 : W12 m ρ c (Proc.devRef .tc main_arg9) = (m ((c.tc : Thread nD τ).loc main_arg9)) := by back2; exact w10_arg9 m ρ c
theorem w12_arg10 : W12 m ρ c (Proc.devRef .tc main_arg10) = (m ((c.tc : Thread nD τ).loc main_arg10)) := by back2; exact w10_arg10 m ρ c
theorem w12_arg11 : W12 m ρ c (Proc.devRef .tc main_arg11) = (m ((c.tc : Thread nD τ).loc main_arg11)) := by back2; exact w10_arg11 m ρ c

/-! ## The head kernel, and the result -/

/-- The head kernel's output array. -/
theorem w13_v46 : W13 m ρ c (Proc.devRef .tc main_v46)
    = headArr (padK (F := Ideal) (cutK (F := Ideal) (W10 m ρ c (Proc.devRef .tc main_v43))) zpad) (m ((c.tc : Thread nD τ).loc main_arg8)) (m ((c.tc : Thread nD τ).loc main_arg9)) (m ((c.tc : Thread nD τ).loc main_arg10)) (m ((c.tc : Thread nD τ).loc main_arg11)) := by
  refine (W13_arr m ρ c 5).trans ((Head.final (V12 m ρ) c).trans ?_)
  show headArr (W12 m ρ c (Proc.devRef .tc main_v45)) (W12 m ρ c (Proc.devRef .tc main_arg8)) (W12 m ρ c (Proc.devRef .tc main_arg9)) (W12 m ρ c (Proc.devRef .tc main_arg10)) (W12 m ρ c (Proc.devRef .tc main_arg11)) = _
  rw [w12_v45, w12_arg8, w12_arg9, w12_arg10, w12_arg11]

/-- The result buffer: the head kernel's output cut back to the node rows. -/
theorem w14_v47 : W14 m ρ c (Proc.devRef .tc main_v47) = cutK8 (F := Ideal) (W13 m ρ c (Proc.devRef .tc main_v46)) := by
  show StableHlo.after hostOps3 (W13 m ρ c) _ = _
  dsimp only [hostOps3]
  after_results_simp
  generalize W13 m ρ c (Proc.devRef .tc main_v46) = y
  rfl

/-- THE RESULT: at the ideal values the kernel program's result buffer ends holding the network of the arguments. Each
    kernel's padded array, cut back to the node rows, is the reference's layer of the unpadded operands. -/
theorem result : W14 m ρ c (Proc.devRef .tc main_v47)
    = gnn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [w14_v47, w13_v46, w10_v43, w5_v27, cut_sage, cut_sage, cut_head]
  rfl

end Cert.Gnn.Chain

end
-- ==== Proof.lean ====
/-
  The kernel program and the reference compute one network.

  Both programs take node features x[100000, 128], an edge list and the weights of two mean-aggregating graph layers
  and of a two-layer head.  A layer maps features h to  relu(agg · Wl + bl + h · Wr),  agg the mean of h over each
  node's in-neighbours (gather the source rows, add them into the target rows, scale by 1 / max(in-degree, 1)); the
  head maps h to  relu(relu(h · W0 + b0) · W1 + b1).  The reference does all of it with host operations.  The kernel
  program keeps the aggregation on the host, verbatim, and runs each layer's dense part and the head in a kernel over
  25 blocks of 4096 rows, the 100000 node rows padded to 102400 before each kernel and cut back after it.

  At the ideal values a change of float format is the identity and a matrix product is the exact sum, so row by row
  each kernel computes what the reference computes; the two differ only in that the layer kernel adds the bias after
  both matrix products,  (P + Q) + b  against  (P + b) + Q  — equal in any commutative additive monoid, hence on the
  extended reals with no finiteness needed.  The padding rows are never read by a node row.  So the kernel program's
  result, read back through its run (Proof/HostChain0 … HostChain2 over the run of Proof/KernelRun.lean), and the reference's
  result (its generated run, Proof/RefSide.lean) are the same function `Cert.Gnn.gnn` of the arguments.
  The idealization rewrote no operation, so `preserves` has nothing to state.
-/
import proofs.«140829_j47588237639689_1_alg».proof.Defs
import proofs.«140829_j47588237639689_1_alg».proof.Proof.Gen.Kernel
import proofs.«140829_j47588237639689_1_alg».proof.Proof.Gen.Kernel.Skeleton
import proofs.«140829_j47588237639689_1_alg».proof.Proof.Gen.Kernel.Launch
import proofs.«140829_j47588237639689_1_alg».proof.Proof.Gen.Kernel.Points
import proofs.«140829_j47588237639689_1_alg».proof.Proof.Gen.Kernel.Frame
import proofs.«140829_j47588237639689_1_alg».proof.Proof.Gen.KernelIdeal
import proofs.«140829_j47588237639689_1_alg».proof.Proof.Gen.KernelIdeal.Skeleton
import proofs.«140829_j47588237639689_1_alg».proof.Proof.Gen.KernelIdeal.Launch
import proofs.«140829_j47588237639689_1_alg».proof.Proof.Gen.KernelIdeal.Points
import proofs.«140829_j47588237639689_1_alg».proof.Proof.Gen.KernelIdeal.Frame
import proofs.«140829_j47588237639689_1_alg».proof.Proof.Gen.ReferenceIdeal
import proofs.«140829_j47588237639689_1_alg».proof.Proof.Gen.Pre_finite_inputs
import proofs.«140829_j47588237639689_1_alg».proof.Proof.Gen.ReferenceIdeal.Run
import proofs.«140829_j47588237639689_1_alg».proof.Proof.Gen.ReferenceIdeal.Read
import proofs.«140829_j47588237639689_1_alg».proof.Proof.KernelRun
import proofs.«140829_j47588237639689_1_alg».proof.Proof.HostChain2
import proofs.«140829_j47588237639689_1_alg».proof.Proof.RefSide
import Idealize.ShloMosaic.Adequacy
import Idealize.ShloMosaic.Init

noncomputable section

namespace Cert.Proof

open Idealize.ShloMosaic Idealize.SL.Sem

/-- The word-level kernel program runs and keeps its arguments: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the network of the arguments in their result
    buffers: the kernel program by reading its run back, the reference by its generated run. -/
theorem algebraic : Cert.algebraic_KernelIdeal_ReferenceIdeal := by
  intro m ρ m' ρ' _ hagree
  refine ⟨fun c => Cert.Gnn.gnn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.Gnn.Chain.result m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.Gnn.RefSide.ref_result, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
